-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S2048x1000 .f32 .bf16
  ∧ IdealRules.truncf_extf.Statement Cert.KernelIdeal.S2048x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536 : Shape := ⟨1, ![65536]⟩
abbrev S1000x512 : Shape := ⟨2, ![1000, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S65536x512 .f32) (main_arg1 : IVec S65536 32) (main_arg2 : FVec F S1000x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S1000x512 .f32 := Host.absf main_arg2
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  let main_c_2 : IVec S_ 32 := constantI S_ 32 0#32
  let main_v9 : IVec S65536 32 := broadcastInDim S65536 ![] bcast_S_S65536 main_c_2
  let main_v10 : IVec S65536 1 := cmpi .sge main_arg1 main_v9
  let main_c_3 : IVec S_ 32 := constantI S_ 32 1000#32
  let main_v11 : IVec S65536 32 := broadcastInDim S65536 ![] bcast_S_S65536 main_c_3
  let main_v12 : IVec S65536 1 := cmpi .slt main_arg1 main_v11
  let main_v13 : IVec S65536 1 := andi main_v10 main_v12
  let main_c_4 : IVec S_ 1 := constantI S_ 1 1#1
  let main_v14 : IVec S_ 1 := (fun x v => Host.reduce IntOp.andi x v reducesTo_S65536_S_d0 h_S_) main_v13 main_c_4
  let main_v15 : IVec S_ 1 := andi main_v8 main_v14
  main_v15
-- ==== Kernel.lean ====
abbrev S65536x512 : Shape := ⟨2, ![65536, 512]⟩
abbrev S65536 : Shape := ⟨1, ![65536]⟩
abbrev S1000x512 : Shape := ⟨2, ![1000, 512]⟩
abbrev S65536x1 : Shape := ⟨2, ![65536, 1]⟩
abbrev S2x1000x512 : Shape := ⟨3, ![2, 1000, 512]⟩
abbrev S2x1x1000 : Shape := ⟨3, ![2, 1, 1000]⟩
abbrev S2x1x1 : Shape := ⟨3, ![2, 1, 1]⟩
abbrev S2048x512 : Shape := ⟨2, ![2048, 512]⟩
abbrev S2048x1 : Shape := ⟨2, ![2048, 1]⟩
abbrev S1x1000x512 : Shape := ⟨3, ![1, 1000, 512]⟩
abbrev S1x1x1000 : Shape := ⟨3, ![1, 1, 1000]⟩
abbrev S1x1x1 : Shape := ⟨3, ![1, 1, 1]⟩
abbrev S1x1000 : Shape := ⟨2, ![1, 1000]⟩
abbrev S1x1 : Shape := ⟨2, ![1, 1]⟩
abbrev S2048x1000 : Shape := ⟨2, ![2048, 1000]⟩
abbrev S1000 : Shape := ⟨1, ![1000]⟩
abbrev S1x2048x512 : Shape := ⟨3, ![1, 2048, 512]⟩
abbrev S1 : Shape := ⟨1, ![1]⟩
abbrev S1000x1 : Shape := ⟨2, ![1000, 1]⟩
abbrev S_ : Shape := ⟨0, ![]⟩

abbrev nBuf : Space → Nat
  | .hbm => 59
  | .vmem => 13
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S1000x512, .f32⟩
  | .hbm, ⟨3, _⟩ => ⟨S65536x1, .i32⟩
  | .hbm, ⟨4, _⟩ => ⟨S2x1000x512, .f32⟩
  | .hbm, ⟨5, _⟩ => ⟨S2x1x1000, .f32⟩
  | .hbm, ⟨6, _⟩ => ⟨S2x1x1, .f32⟩
  | .hbm, ⟨7, _⟩ => ⟨S1x1000x512, .f32⟩
  | .hbm, ⟨8, _⟩ => ⟨S1000x512, .f32⟩
  | .hbm, ⟨9, _⟩ => ⟨S1x1000x512, .f32⟩
  | .hbm, ⟨10, _⟩ => ⟨S1000x512, .f32⟩
  | .hbm, ⟨11, _⟩ => ⟨S1000x512, .f32⟩
  | .hbm, ⟨12, _⟩ => ⟨S1x1x1000, .f32⟩
  | .hbm, ⟨13, _⟩ => ⟨S1x1000, .f32⟩
  | .hbm, ⟨14, _⟩ => ⟨S1x1x1000, .f32⟩
  | .hbm, ⟨15, _⟩ => ⟨S1x1000, .f32⟩
  | .hbm, ⟨16, _⟩ => ⟨S1x1000, .f32⟩
  | .hbm, ⟨17, _⟩ => ⟨S1000x1, .f32⟩
  | .hbm, ⟨18, _⟩ => ⟨S1x1x1, .f32⟩
  | .hbm, ⟨19, _⟩ => ⟨S_, .f32⟩
  | .hbm, ⟨20, _⟩ => ⟨S1x1x1, .f32⟩
  | .hbm, ⟨21, _⟩ => ⟨S_, .f32⟩
  | .hbm, ⟨22, _⟩ => ⟨S_, .f32⟩
  | .hbm, ⟨23, _⟩ => ⟨S1000x512, .f32⟩
  | .hbm, ⟨24, _⟩ => ⟨S_, .f32⟩
  | .hbm, ⟨25, _⟩ => ⟨S1000, .f32⟩
  | .hbm, ⟨26, _⟩ => ⟨S1000x1, .f32⟩
  | .hbm, ⟨27, _⟩ => ⟨S1000x512, .f32⟩
  | .hbm, ⟨28, _⟩ => ⟨S_, .f32⟩
  | .hbm, ⟨29, _⟩ => ⟨S_, .f32⟩
  | .hbm, ⟨30, _⟩ => ⟨S1000x1, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1000x512, .f32⟩
  | .hbm, ⟨40, _⟩ => ⟨S1000x512, .f32⟩
  | .hbm, ⟨41, _⟩ => ⟨S1000x512, .f32⟩
  | .hbm, ⟨42, _⟩ => ⟨S_, .f32⟩
  | .hbm, ⟨43, _⟩ => ⟨S1000x1, .f32⟩
  | .hbm, ⟨44, _⟩ => ⟨S1000x1, .f32⟩
  | .hbm, ⟨45, _⟩ => ⟨S1000x512, .f32⟩
  | .hbm, ⟨46, _⟩ => ⟨S1000x512, .f32⟩
  | .hbm, ⟨47, _⟩ => ⟨S_, .f32⟩
  | .hbm, ⟨48, _⟩ => ⟨S1000x1, .f32⟩
  | .hbm, ⟨49, _⟩ => ⟨S1000x1, .i1⟩
  | .hbm, ⟨50, _⟩ => ⟨S_, .f32⟩
  | .hbm, ⟨51, _⟩ => ⟨S1000x512, .f32⟩
  | .hbm, ⟨52, _⟩ => ⟨S1000x512, .f32⟩
  | .hbm, ⟨53, _⟩ => ⟨S_, .f32⟩
  | .hbm, ⟨54, _⟩ => ⟨S_, .f32⟩
  | .hbm, ⟨55, _⟩ => ⟨S1000x512, .i1⟩
  | .hbm, ⟨56, _⟩ => ⟨S1000x512, .f32⟩
  | .hbm, ⟨57, _⟩ => ⟨S1000x512, .f32⟩
  | .hbm, ⟨58, _⟩ => ⟨S1000x512, .f32⟩
  | .local _ .vmem, ⟨0, _⟩ => ⟨S2048x512, .f32⟩
  | .local _ .vmem, ⟨1, _⟩ => ⟨S2048x512, .f32⟩
  | .local _ .vmem, ⟨2, _⟩ => ⟨S2048x1, .i32⟩
  | .local _ .vmem, ⟨3, _⟩ => ⟨S2048x1, .i32⟩
  | .local _ .vmem, ⟨4, _⟩ => ⟨S1x1000x512, .f32⟩
  | .local _ .vmem, ⟨5, _⟩ => ⟨S1x1000x512, .f32⟩
  | .local _ .vmem, ⟨6, _⟩ => ⟨S1x1x1000, .f32⟩
  | .local _ .vmem, ⟨7, _⟩ => ⟨S1x1x1000, .f32⟩
  | .local _ .vmem, ⟨8, _⟩ => ⟨S1x1x1, .f32⟩
  | .local _ .vmem, ⟨9, _⟩ => ⟨S1x1x1, .f32⟩
  | .local _ .vmem, ⟨10, _⟩ => ⟨S1000x512, .f32⟩
  | .local _ .vmem, ⟨11, _⟩ => ⟨S1x1000, .f32⟩
  | .local _ .vmem, ⟨12, _⟩ => ⟨S1x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v40 : Ref sig .tc := ⟨.hbm, 57, rfl⟩
abbrev main_v41 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v47 : BitVec 1 := Scalar.cmpi .eq arg1 c15_i32
  let v48 : BitVec 32 := Scalar.extui v47
  let c0_i32_20 : BitVec 32 := 0#32
  let v49 : BitVec 1 := Scalar.cmpi .ne v48 c0_i32_20
  v49

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S65536_S65536x1 : S65536.ShapeCasts S65536x1
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x512_S2048x512_0_0 : ∀ a, (![0, 0] : Fin 2 → Nat) a + S2048x512.size a ≤ S2048x512.size a
  h_S2048x512 : 0 < S2048x512.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x1000_d1_w32 : S2048x1000.Iotas .tc 32 [1]
  broadcasts_S2048x1_S2048x1000 : S2048x1.Broadcasts S2048x1000
  natLt_1_32 : 1 < 32
  bitsLt_bf16_f32 : FTy.bits .bf16 < FTy.bits .f32
  reduces_S2048x1000_S1000 : S2048x1000.Reduces [0] S1000
  shapeCasts_S1000_S1x1000 : S1000.ShapeCasts S1x1000
  shapeCasts_S2048x512_S1x2048x512 : S2048x512.ShapeCasts S1x2048x512
  reduces_S1x2048x512_S1 : S1x2048x512.Reduces [1, 2] S1
  shapeCasts_S1_S1x1x1 : S1.ShapeCasts S1x1x1
  inpos_S1x1x1_p0_0_0 : ∀ a, (![0, 0, 0] : Fin 3 → Nat) a < S1x1x1.size a
  inb_S1x1000x512_S1x1000x512_0_0_0 : ∀ a, (![0, 0, 0] : Fin 3 → Nat) a + S1x1000x512.size a ≤ S1x1000x512.size a
  h_S1x1000x512 : 0 < S1x1000x512.numel
  shapeCasts_S1x1000x512_S1000x512 : S1x1000x512.ShapeCasts S1000x512
  shapeCasts_S1000x512_S1x1000x512 : S1000x512.ShapeCasts S1x1000x512
  inb_S1x1x1000_S1x1x1000_0_0_0 : ∀ a, (![0, 0, 0] : Fin 3 → Nat) a + S1x1x1000.size a ≤ S1x1x1000.size a
  h_S1x1x1000 : 0 < S1x1x1000.numel
  shapeCasts_S1x1x1000_S1x1000 : S1x1x1000.ShapeCasts S1x1000
  shapeCasts_S1x1000_S1x1x1000 : S1x1000.ShapeCasts S1x1x1000
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  slices_S2x1000x512_S1x1000x512_0_0_0 : S2x1000x512.Slices ![0, 0, 0] S1x1000x512
  slices_S2x1000x512_S1x1000x512_1_0_0 : S2x1000x512.Slices ![1, 0, 0] S1x1000x512
  slices_S2x1x1000_S1x1x1000_0_0_0 : S2x1x1000.Slices ![0, 0, 0] S1x1x1000
  slices_S2x1x1000_S1x1x1000_1_0_0 : S2x1x1000.Slices ![1, 0, 0] S1x1x1000
  shapeCasts_S1x1000_S1000x1 : S1x1000.ShapeCasts S1000x1
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  reducesTo_S1000x512_S1000_d1 : S1000x512.ReducesTo [1] S1000
  h_S_ : 0 < S_.numel
  bcast_S1000_S1000x1_0 : S1000.BroadcastsInDim S1000x1 (![0] : Fin 1 → Fin S1000x1.rank)
  reducesTo_S1000x512_S_d0_1 : S1000x512.ReducesTo [0, 1] S_
  reducesTo_S1000x1_S_d0_1 : S1000x1.ReducesTo [0, 1] S_
  bcast_S1000x1_S1000x512_0_1 : S1000x1.BroadcastsInDim S1000x512 (![0, 1] : Fin 2 → Fin S1000x512.rank)
  bcast_S_S1000x1 : S_.BroadcastsInDim S1000x1 (![] : Fin 0 → Fin S1000x1.rank)
  bcast_S_S1000x512 : S_.BroadcastsInDim S1000x512 (![] : Fin 0 → Fin S1000x512.rank)
  dot_S2048x1000_S2048x512_S1000x512_0_0_1_1_n_n_wf : DotDims.WF S2048x1000 S2048x512 S1000x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S65536x1.size a
  hwx0_1 : ∀ i : grid0.Coords, EltTy.bits .i32 = 32 ∨ (Rect.block (s := S65536x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1000x512.size a ≤ S2x1000x512.size a
  hwx0_2 : ∀ i : grid0.Coords, EltTy.bits .f32 = 32 ∨ (Rect.block (s := S2x1000x512) S1x1000x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1000.size a ≤ S2x1x1000.size a
  hwx0_3 : ∀ i : grid0.Coords, EltTy.bits .f32 = 32 ∨ (Rect.block (s := S2x1x1000) S1x1x1000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)

variable [Facts₀]

def dot_S2048x1000_S2048x512_S1000x512_0_0_1_1_n_n : DotDims S2048x1000 S2048x512 S1000x512 where
  lhsContracting := [0]
  rhsContracting := [0]
  lhsNonContracting := [1]
  rhsNonContracting := [1]
  lhsBatch := []
  rhsBatch := []
  wf := dot_S2048x1000_S2048x512_S1000x512_0_0_1_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1000x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x1000.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S65536x512 : Shape := ⟨2, ![65536, 512]⟩
abbrev S65536 : Shape := ⟨1, ![65536]⟩
abbrev S1000x512 : Shape := ⟨2, ![1000, 512]⟩
abbrev S_ : Shape := ⟨0, ![]⟩
abbrev S65536x1 : Shape := ⟨2, ![65536, 1]⟩
abbrev S1000 : Shape := ⟨1, ![1000]⟩
abbrev S1000x1 : Shape := ⟨2, ![1000, 1]⟩

abbrev nBuf : Space → Nat
  | .hbm => 50
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S1000x512, .f32⟩
  | .hbm, ⟨3, _⟩ => ⟨S_, .i32⟩
  | .hbm, ⟨4, _⟩ => ⟨S65536, .i32⟩
  | .hbm, ⟨5, _⟩ => ⟨S65536, .i1⟩
  | .hbm, ⟨6, _⟩ => ⟨S_, .i32⟩
  | .hbm, ⟨7, _⟩ => ⟨S65536, .i32⟩
  | .hbm, ⟨8, _⟩ => ⟨S65536, .i32⟩
  | .hbm, ⟨9, _⟩ => ⟨S65536, .i32⟩
  | .hbm, ⟨10, _⟩ => ⟨S65536x1, .i32⟩
  | .hbm, ⟨11, _⟩ => ⟨S65536x512, .f32⟩
  | .hbm, ⟨12, _⟩ => ⟨S65536x512, .f32⟩
  | .hbm, ⟨13, _⟩ => ⟨S65536x512, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S65536x512, .f32⟩
  | .hbm, ⟨21, _⟩ => ⟨S_, .f32⟩
  | .hbm, ⟨22, _⟩ => ⟨S1000x512, .f32⟩
  | .hbm, ⟨23, _⟩ => ⟨S65536x1, .i32⟩
  | .hbm, ⟨24, _⟩ => ⟨S1000x512, .f32⟩
  | .hbm, ⟨25, _⟩ => ⟨S_, .f32⟩
  | .hbm, ⟨26, _⟩ => ⟨S65536, .f32⟩
  | .hbm, ⟨27, _⟩ => ⟨S_, .f32⟩
  | .hbm, ⟨28, _⟩ => ⟨S1000, .f32⟩
  | .hbm, ⟨29, _⟩ => ⟨S65536x1, .i32⟩
  | .hbm, ⟨30, _⟩ => ⟨S1000, .f32⟩
  | .hbm, ⟨31, _⟩ => ⟨S_, .f32⟩
  | .hbm, ⟨32, _⟩ => ⟨S1000, .f32⟩
  | .hbm, ⟨33, _⟩ => ⟨S1000, .f32⟩
  | .hbm, ⟨34, _⟩ => ⟨S1000x1, .f32⟩
  | .hbm, ⟨35, _⟩ => ⟨S1000x512, .f32⟩
  | .hbm, ⟨36, _⟩ => ⟨S1000x512, .f32⟩
  | .hbm, ⟨37, _⟩ => ⟨S1000x1, .f32⟩
  | .hbm, ⟨38, _⟩ => ⟨S_, .f32⟩
  | .hbm, ⟨39, _⟩ => ⟨S1000x1, .f32⟩
  | .hbm, ⟨40, _⟩ => ⟨S1000x1, .i1⟩
  | .hbm, ⟨41, _⟩ => ⟨S_, .f32⟩
  | .hbm, ⟨42, _⟩ => ⟨S1000x512, .f32⟩
  | .hbm, ⟨43, _⟩ => ⟨S1000x512, .f32⟩
  | .hbm, ⟨44, _⟩ => ⟨S_, .f32⟩
  | .hbm, ⟨45, _⟩ => ⟨S_, .f32⟩
  | .hbm, ⟨46, _⟩ => ⟨S1000x512, .i1⟩
  | .hbm, ⟨47, _⟩ => ⟨S1000x512, .f32⟩
  | .hbm, ⟨48, _⟩ => ⟨S1000x512, .f32⟩
  | .hbm, ⟨49, _⟩ => ⟨S1000x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  reducesTo_S65536x512_S_d0_1 : S65536x512.ReducesTo [0, 1] S_
  h_S_ : 0 < S_.numel
  bcast_S_S1000x512 : S_.BroadcastsInDim S1000x512 (![] : Fin 0 → Fin S1000x512.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x512_0_1 : S1000x1.BroadcastsInDim S1000x512 (![0, 1] : Fin 2 → Fin S1000x512.rank)
  bcast_S_S1000x1 : S_.BroadcastsInDim S1000x1 (![] : Fin 0 → Fin S1000x1.rank)
  gather_S1000x512_S65536x1_S65536x512_1_0_n_n_0_1_1512_wf : GatherDims.WF S1000x512 S65536x1 S65536x512 [1] [0] [] [0] [] 1 ![1, 512]
  scatter_S1000x512_S65536x1_S65536x512_1_0_0_1_wf : ScatterDims.WF S1000x512 S65536x1 S65536x512 [1] [0] [0] 1
  scatter_S1000_S65536x1_S65536_n_0_0_1_wf : ScatterDims.WF S1000 S65536x1 S65536 [] [0] [0] 1

variable [Facts₀]

def gather_S1000x512_S65536x1_S65536x512_1_0_n_n_0_1_1512 : GatherDims S1000x512 S65536x1 S65536x512 where
  offsetDims := [1]
  collapsedSliceDims := [0]
  operandBatchingDims := []
  startIndicesBatchingDims := []
  startIndexMap := [0]
  indexVectorDim := 1
  sliceSizes := ![1, 512]
  wf := gather_S1000x512_S65536x1_S65536x512_1_0_n_n_0_1_1512_wf
def scatter_S1000x512_S65536x1_S65536x512_1_0_0_1 : ScatterDims S1000x512 S65536x1 S65536x512 where
  updateWindowDims := [1]
  insertedWindowDims := [0]
  scatterDimsToOperandDims := [0]
  indexVectorDim := 1
  wf := scatter_S1000x512_S65536x1_S65536x512_1_0_0_1_wf
def scatter_S1000_S65536x1_S65536_n_0_0_1 : ScatterDims S1000 S65536x1 S65536 where
  updateWindowDims := []
  insertedWindowDims := [0]
  scatterDimsToOperandDims := [0]
  indexVectorDim := 1
  wf := scatter_S1000_S65536x1_S65536_n_0_0_1_wf

class Facts : Prop extends Facts₀ where

variable [Facts]
-- ==== Proof.Spec.lean ====
/-
  Center loss: the quantities both programs compute, as functions of the three argument arrays.

  The arguments are the features X (65536 samples of 512 coordinates), one label per sample, and the centers Cn
  (1000 classes of 512 coordinates).  Three sums carry everything: for a class c, the number of samples labelled c;
  the coordinate-wise sum of those samples' features; and the sum of all squared features.  The kernel forms the three
  sums tile by tile (2048 samples at a time), one half of the samples per core, and finishes on the host by expanding
  the square:  sum (x - cen)^2 = sum x^2 - 2 sum <seg_c, cen_c> + sum n_c |cen_c|^2.  The reference gathers each sample's
  center, sums the squared differences directly, and scatter-adds the differences cen - x by label.
  Samples, labels and coordinates are indexed by natural numbers here and read as zero outside the arrays, so that
  ranges of samples can be added and split without carrying bounds.
-/
import Idealize.ShloMosaic.Lib.ValueIdx
import Idealize.ShloMosaic.PureOps.Ideal.Laws

noncomputable section

namespace CenterLoss

open Idealize.ShloMosaic Idealize.ShloMosaic.ValueIdx
open scoped BigOperators

abbrev SX : Shape := ⟨2, ![65536, 512]⟩
abbrev SLb : Shape := ⟨1, ![65536]⟩
abbrev SCn : Shape := ⟨2, ![1000, 512]⟩
abbrev SO0 : Shape := ⟨3, ![2, 1000, 512]⟩
abbrev SO1 : Shape := ⟨3, ![2, 1, 1000]⟩
abbrev SO2 : Shape := ⟨3, ![2, 1, 1]⟩

/-! ## The arrays read at natural-number coordinates -/

/-- Coordinate `d` of sample `k`'s features; zero outside the array. -/
def feat (X : SX.Idx → EReal) (k d : ℕ) : EReal :=
  if h : k < 65536 ∧ d < 512 then X (ix2 ⟨k, h.1⟩ ⟨d, h.2⟩) else 0

/-- Sample `k`'s label, as a natural number; zero outside the array. -/
def lab (Lb : SLb.Idx → BitVec 32) (k : ℕ) : ℕ :=
  if h : k < 65536 then (Lb (ix1 ⟨k, h⟩)).toNat else 0

/-- Coordinate `d` of class `c`'s center; zero outside the array. -/
def cen (Cn : SCn.Idx → EReal) (c d : ℕ) : EReal :=
  if h : c < 1000 ∧ d < 512 then Cn (ix2 ⟨c, h.1⟩ ⟨d, h.2⟩) else 0

/-! ## The three sums over a range of samples `[lo, lo + len)` -/

/-- The sum of coordinate `d` over the samples of the range labelled `c`. -/
def segOn (X : SX.Idx → EReal) (Lb : SLb.Idx → BitVec 32) (lo len c d : ℕ) : EReal :=
  ∑ r ∈ Finset.range len, if lab Lb (lo + r) = c then feat X (lo + r) d else 0

/-- The number of samples of the range labelled `c`. -/
def cntOn (Lb : SLb.Idx → BitVec 32) (lo len c : ℕ) : EReal :=
  ∑ r ∈ Finset.range len, if lab Lb (lo + r) = c then (1 : EReal) else 0

/-- The sum of the squared features of the samples of the range. -/
def ssqOn (X : SX.Idx → EReal) (lo len : ℕ) : EReal :=
  ∑ r ∈ Finset.range len, ∑ d ∈ Finset.range 512, feat X (lo + r) d * feat X (lo + r) d

/-! ## What the kernel's grid leaves: each core's half of the three sums -/

/-- Core `h`'s per-class feature sums over its half of the samples. -/
def out0 (X : SX.Idx → EReal) (Lb : SLb.Idx → BitVec 32) : SO0.Idx → EReal :=
  fun i => segOn X Lb ((i 0).val * 32768) 32768 (i 1).val (i 2).val

/-- Core `h`'s per-class counts over its half of the samples. -/
def out1 (Lb : SLb.Idx → BitVec 32) : SO1.Idx → EReal :=
  fun i => cntOn Lb ((i 0).val * 32768) 32768 (i 2).val

/-- Core `h`'s sum of squared features over its half of the samples. -/
def out2 (X : SX.Idx → EReal) : SO2.Idx → EReal :=
  fun i => ssqOn X ((i 0).val * 32768) 32768

/-! ## The host's finish, over any three such arrays -/

/-- The two cores' feature sums added. -/
def tSum (O0 : SO0.Idx → EReal) (c : Fin 1000) (d : Fin 512) : EReal := O0 (ix3 0 c d) + O0 (ix3 1 c d)
/-- The two cores' counts added. -/
def tCnt (O1 : SO1.Idx → EReal) (c : Fin 1000) : EReal := O1 (ix3 0 0 c) + O1 (ix3 1 0 c)
/-- The two cores' sums of squares added. -/
def tSq (O2 : SO2.Idx → EReal) : EReal := O2 (ix3 0 0 0) + O2 (ix3 1 0 0)

/-- The loss by the expanded square, divided by twice the number of samples. -/
def tailLoss (O0 : SO0.Idx → EReal) (O1 : SO1.Idx → EReal) (O2 : SO2.Idx → EReal) (Cn : SCn.Idx → EReal) : EReal :=
  Ideal.div
    ((tSq O2 - 2 * ∑ c : Fin 1000, ∑ d : Fin 512, tSum O0 c d * Cn (ix2 c d))
      + ∑ c : Fin 1000, tCnt O1 c * ∑ d : Fin 512, Cn (ix2 c d) * Cn (ix2 c d))
    131072

/-- The step a center takes: half the mean difference over its class when the class has a sample, else none.
    `n` is the class's count and `s` the sum of the differences center - feature over the class. -/
def upd (n s : EReal) : EReal :=
  if 0 < n then Ideal.div s (max n 1) * ((1 / 2 : ℝ) : EReal) else 0

/-- The updated center as the kernel's host part computes it. -/
def tailNew (O0 : SO0.Idx → EReal) (O1 : SO1.Idx → EReal) (Cn : SCn.Idx → EReal) (c : Fin 1000) (d : Fin 512) : EReal :=
  Cn (ix2 c d) - upd (tCnt O1 c) (tCnt O1 c * Cn (ix2 c d) - tSum O0 c d)

/-! ## The reference -/

/-- The loss as the sum of squared differences to each sample's own center, halved and averaged. -/
def refLoss (X : SX.Idx → EReal) (Lb : SLb.Idx → BitVec 32) (Cn : SCn.Idx → EReal) : EReal :=
  Ideal.div (Ideal.div
    (∑ b : Fin 65536, ∑ d : Fin 512,
      (X (ix2 b d) - cen Cn (lab Lb b.val) d.val) * (X (ix2 b d) - cen Cn (lab Lb b.val) d.val)) 2) 65536

/-- The sum over class `c`'s samples of center - feature, at coordinate `d`. -/
def refSeg (X : SX.Idx → EReal) (Lb : SLb.Idx → BitVec 32) (Cn : SCn.Idx → EReal) (c : Fin 1000) (d : Fin 512) : EReal :=
  ∑ b : Fin 65536, if lab Lb b.val = c.val then cen Cn (lab Lb b.val) d.val - X (ix2 b d) else 0

/-- The number of samples labelled `c`. -/
def refCnt (Lb : SLb.Idx → BitVec 32) (c : Fin 1000) : EReal :=
  ∑ b : Fin 65536, if lab Lb b.val = c.val then (1 : EReal) else 0

/-- The updated center as the reference computes it. -/
def refNew (X : SX.Idx → EReal) (Lb : SLb.Idx → BitVec 32) (Cn : SCn.Idx → EReal) (c : Fin 1000) (d : Fin 512) : EReal :=
  Cn (ix2 c d) - upd (refCnt Lb c) (refSeg X Lb Cn c d)

/-! ## The two results as arrays -/

/-- The loss as the one entry of a rank-0 array. -/
def lossArr (v : EReal) : (⟨0, ![]⟩ : Shape).Idx → EReal := fun _ => v

/-- A function of class and coordinate as a 1000 x 512 array. -/
def newArr (f : Fin 1000 → Fin 512 → EReal) : SCn.Idx → EReal :=
  fun j => f ⟨(j 0).val, idx2_lt0 j⟩ ⟨(j 1).val, idx2_lt1 j⟩

theorem newArr_ix2 (f : Fin 1000 → Fin 512 → EReal) (c : Fin 1000) (d : Fin 512) : newArr f (ix2 c d) = f c d := rfl

/-! ## What the precondition gives -/

/-- Every entry of an array is a real number. -/
def Finite {S : Shape} (A : S.Idx → EReal) : Prop := ∀ i, ∃ r : ℝ, A i = (r : EReal)

/-- Every label names a class. -/
def InRange (Lb : SLb.Idx → BitVec 32) : Prop := ∀ b : Fin 65536, (Lb (ix1 b)).toNat < 1000

end CenterLoss

end
-- ==== Proof.KBlocks.lean ====
/-
  The two input blocks of a grid point, read at an entry.  Point t (core t / 16, step t % 16) is handed rows
  [2048 t, 2048 t + 2048) of the features and of the labels; the labels reach the kernel as a 65536 x 1 column, a
  reshape of the label vector.
-/
import proofs.«402336_j7009386627592_3_alg».proof.Proof.Gen.KernelIdeal.Frame
import proofs.«402336_j7009386627592_3_alg».proof.Proof.Spec
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The features, the labels and the centers as the program finds them on core `c`. -/
abbrev argX (c : Dev nD) : CenterLoss.SX.Idx → EReal := m ((c.tc : Thread nD τ).loc main_arg0)
abbrev argL (c : Dev nD) : CenterLoss.SLb.Idx → BitVec 32 := m ((c.tc : Thread nD τ).loc main_arg1)
abbrev argC (c : Dev nD) : CenterLoss.SCn.Idx → EReal := m ((c.tc : Thread nD τ).loc main_arg2)

/-- Point `t`'s block of features and of labels, at their literal shapes. -/
abbrev xblk (c : Dev nD) (t : Fin cfg0.N) : Vec Ideal S2048x512 .f32 := iblk (F := Ideal) m c 0 t
abbrev lblk (c : Dev nD) (t : Fin cfg0.N) : Vec Ideal S2048x1 .i32 := iblk (F := Ideal) m c 1 t

/-- Both input windows sit at block row `t` (16 times the core plus the step), block column 0. -/
private theorem index_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The grid has 32 points. -/
private theorem point_lt (t : Fin cfg0.N) : t.val < 32 := by
  have h := t.isLt
  have hN : cfg0.N = 32 := N_0
  omega

/-- The label column as the kernel finds it is the label vector in row-major order at shape 65536 x 1. -/
private theorem labels_column (c : Dev nD) :
    (V m c main_v0 : S65536x1.Idx → BitVec 32) = shapeCast S65536x1 (argL m c) shapeCasts_S65536_S65536x1 := by
  show StableHlo.after hostOps0 (fun b => m (c, b)) (Proc.devRef .tc main_v0) = _
  after_results; rfl

/-- Row `k` of the column is entry `k` of the vector. -/
private theorem column_apply (L : CenterLoss.SLb.Idx → BitVec 32) (j : S65536x1.Idx) (k : ℕ) (hk : k < 65536)
    (h0 : (j 0).val = k) : shapeCast S65536x1 L shapeCasts_S65536_S65536x1 j = L (ix1 ⟨k, hk⟩) := by
  refine shapeCast_apply _ _ j _ ?_
  rw [Shape.rowMajor_val_one, Shape.rowMajor_val_two]
  have h1 : (j 1).val < 1 := idx2_lt1 j
  show k = (j 0).val * 1 + (j 1).val
  omega

theorem xblk_apply (c : Dev nD) (t : Fin cfg0.N) (r : Fin 2048) (d : Fin 512) :
    xblk m c t (ix2 r d) = CenterLoss.feat (argX m c) (t.val * 2048 + r.val) d.val := by
  have ht := point_lt t
  obtain ⟨e0, e1, -, -⟩ := index_facts t
  have hr := r.isLt
  have hd := d.isLt
  unfold CenterLoss.feat
  rw [dif_pos ⟨by omega, hd⟩]
  show V m c main_arg0 (((cfg0.win 0).blk t).view.emb (ix2 r d)) = _
  rw [V_main_arg0]
  show argX m c _ = argX m c _
  congr 1
  funext a; apply Fin.ext
  match a with
  | ⟨0, _⟩ => show win0_0.index t (0 : Fin 2) * 2048 + 1 * r.val = t.val * 2048 + r.val; omega
  | ⟨1, _⟩ => show win0_0.index t (1 : Fin 2) * 512 + 1 * d.val = d.val; omega

theorem lblk_apply (c : Dev nD) (t : Fin cfg0.N) (r : Fin 2048) :
    (lblk m c t (ix2 r 0)).toNat = CenterLoss.lab (argL m c) (t.val * 2048 + r.val) := by
  have ht := point_lt t
  obtain ⟨-, -, e0, e1⟩ := index_facts t
  have hr := r.isLt
  unfold CenterLoss.lab
  rw [dif_pos (show t.val * 2048 + r.val < 65536 by omega)]
  show (V m c main_v0 (((cfg0.win 1).blk t).view.emb (ix2 r 0))).toNat = _
  rw [labels_column]
  exact congrArg BitVec.toNat (column_apply (argL m c) _ (t.val * 2048 + r.val) (by omega)
    (by show win0_1.index t (0 : Fin 2) * 2048 + 1 * r.val = _; omega))

end Cert.KernelIdeal.Blocks

end
-- ==== Proof.Consts.lean ====
/-
  The float constants the two programs spell, as the numbers their bit patterns denote.
-/
import Idealize.ShloMosaic.PureOps.Ideal.Laws

noncomputable section

namespace CenterLoss.Consts

open Idealize.ShloMosaic

/-- `2.0`. -/
theorem ofBits_two : Ideal.ofBits .f32 0x40000000#32 = (2 : EReal) := by
  simp [Ideal.ofBits, Ideal.ieee, -EReal.coe_mul]; norm_num; norm_cast

/-- `131072.0`, twice the number of samples. -/
theorem ofBits_131072 : Ideal.ofBits .f32 0x48000000#32 = (131072 : EReal) := by
  simp [Ideal.ofBits, Ideal.ieee, -EReal.coe_mul]; norm_num; norm_cast

/-- `65536.0`, the number of samples. -/
theorem ofBits_65536 : Ideal.ofBits .f32 0x47800000#32 = (65536 : EReal) := by
  simp [Ideal.ofBits, Ideal.ieee, -EReal.coe_mul]; norm_num; norm_cast

/-- `0.5`. -/
theorem ofBits_half : Ideal.ofBits .f32 0x3F000000#32 = ((1 / 2 : ℝ) : EReal) := by
  simp [Ideal.ofBits, Ideal.ieee, -EReal.coe_mul]; norm_num

/-- `1.0`. -/
theorem ofBits_one : Ideal.ofBits .f32 0x3F800000#32 = (1 : EReal) := by
  simp [Ideal.ofBits, Ideal.ieee, -EReal.coe_mul]; norm_num

end CenterLoss.Consts

end
-- ==== Proof.KTail.lean ====
/-
  The kernel program's two results as functions of the three arrays its grid leaves and of the centers: the host
  operations after the grid add the two cores' halves and finish the loss and the updated centers.

  The host's lines after the grid are first gathered into one term over the three arrays and the centers: the summed
  halves `sumV`, `cntV`, `sqV`, each center's squared length `csqV`, the loss `lossV` and the updated centers `newV`.
  Each is then read at an index: a slice of the leading axis followed by a cast that drops it reads the array at that
  core's row; a sum over the coordinates of a class, or over all classes and coordinates, is the initial zero plus the
  sum of the entries; a broadcast of a column reads the class's entry; the choice by "count > 0" is the conditional of
  the specification's step.
-/
import proofs.«402336_j7009386627592_3_alg».proof.Proof.Gen.KernelIdeal.Frame
import proofs.«402336_j7009386627592_3_alg».proof.Proof.KBlocks
import proofs.«402336_j7009386627592_3_alg».proof.Proof.Consts
import Idealize.ShloMosaic.Lib.Pipeline.Value
import Idealize.ShloMosaic.Lib.IdealHost
import Idealize.ShloMosaic.Lib.ValueLayout

set_option maxRecDepth 16384

noncomputable section

namespace Cert.KernelIdeal.Tail

open Idealize.ShloMosaic Idealize.ShloMosaic.TcCoe Idealize.ShloMosaic.ValueIdx Idealize.SL.Sem Cert.KernelIdeal Cert.KernelIdeal.Gen
open Cert.KernelIdeal.Blocks

/-! ## The host's finish as one term over the three arrays and the centers -/

section Terms

variable {F : FTy → Type} [FloatOps F]

/-- The two cores' halves of the feature sums, added: a 1000 x 512 array. -/
def sumV (A0 : (⟨S2x1000x512, .f32⟩ : BufTy).Contents (Elt F)) : (⟨S1000x512, .f32⟩ : BufTy).Contents (Elt F) :=
  addf (fun i => shapeCast S1000x512 (extractStridedSlice S1x1000x512 ![0, 0, 0] A0 slices_S2x1000x512_S1x1000x512_0_0_0) shapeCasts_S1x1000x512_S1000x512 i)
    (fun i => shapeCast S1000x512 (extractStridedSlice S1x1000x512 ![1, 0, 0] A0 slices_S2x1000x512_S1x1000x512_1_0_0) shapeCasts_S1x1000x512_S1000x512 i)

/-- The two cores' halves of the counts, added, as a column of 1000 entries. -/
def cntV (A1 : (⟨S2x1x1000, .f32⟩ : BufTy).Contents (Elt F)) : (⟨S1000x1, .f32⟩ : BufTy).Contents (Elt F) :=
  fun i => shapeCast S1000x1
    (addf (fun i => shapeCast S1x1000 (extractStridedSlice S1x1x1000 ![0, 0, 0] A1 slices_S2x1x1000_S1x1x1000_0_0_0) shapeCasts_S1x1x1000_S1x1000 i)
      (fun i => shapeCast S1x1000 (extractStridedSlice S1x1x1000 ![1, 0, 0] A1 slices_S2x1x1000_S1x1x1000_1_0_0) shapeCasts_S1x1x1000_S1x1000 i))
    shapeCasts_S1x1000_S1000x1 i

/-- The two cores' halves of the sum of squares, added: a scalar. -/
def sqV (A2 : (⟨S2x1x1, .f32⟩ : BufTy).Contents (Elt F)) : (⟨S_, .f32⟩ : BufTy).Contents (Elt F) :=
  addf (fun i => shapeCast S_ (extractStridedSlice S1x1x1 ![0, 0, 0] A2 slices_S2x1x1_S1x1x1_0_0_0) shapeCasts_S1x1x1_S_ i)
    (fun i => shapeCast S_ (extractStridedSlice S1x1x1 ![1, 0, 0] A2 slices_S2x1x1_S1x1x1_1_0_0) shapeCasts_S1x1x1_S_ i)

/-- Each center's squared length, as a column of 1000 entries. -/
def csqV (Cn : (⟨S1000x512, .f32⟩ : BufTy).Contents (Elt F)) : (⟨S1000x1, .f32⟩ : BufTy).Contents (Elt F) :=
  broadcastInDim S1000x1 ![0] bcast_S1000_S1000x1_0
    (Host.reduceAdd (mulf Cn Cn) (constant (F := F) S_ .f32 0x00000000#32) reducesTo_S1000x512_S1000_d1 h_S_)

/-- The loss: the expanded square over twice the number of samples. -/
def lossV (A0 : (⟨S2x1000x512, .f32⟩ : BufTy).Contents (Elt F)) (A1 : (⟨S2x1x1000, .f32⟩ : BufTy).Contents (Elt F))
    (A2 : (⟨S2x1x1, .f32⟩ : BufTy).Contents (Elt F)) (Cn : (⟨S1000x512, .f32⟩ : BufTy).Contents (Elt F)) :
    (⟨S_, .f32⟩ : BufTy).Contents (Elt F) :=
  Host.divf
    (addf
      (subf (sqV A2)
        (mulf (constant (F := F) S_ .f32 0x40000000#32)
          (Host.reduceAdd (mulf (sumV A0) Cn) (constant (F := F) S_ .f32 0x00000000#32) reducesTo_S1000x512_S_d0_1 h_S_)))
      (Host.reduceAdd (mulf (cntV A1) (csqV Cn)) (constant (F := F) S_ .f32 0x00000000#32) reducesTo_S1000x1_S_d0_1 h_S_))
    (constant (F := F) S_ .f32 0x48000000#32)

/-- The updated centers. -/
def newV (A0 : (⟨S2x1000x512, .f32⟩ : BufTy).Contents (Elt F)) (A1 : (⟨S2x1x1000, .f32⟩ : BufTy).Contents (Elt F))
    (Cn : (⟨S1000x512, .f32⟩ : BufTy).Contents (Elt F)) : (⟨S1000x512, .f32⟩ : BufTy).Contents (Elt F) :=
  subf Cn
    (select
      (broadcastInDim S1000x512 ![0, 1] bcast_S1000x1_S1000x512_0_1
        (cmpf (F := F) .ogt (cntV A1) (broadcastInDim S1000x1 ![] bcast_S_S1000x1 (constant (F := F) S_ .f32 0x00000000#32))))
      (mulf
        (Host.divf
          (subf (mulf (broadcastInDim S1000x512 ![0, 1] bcast_S1000x1_S1000x512_0_1 (cntV A1)) Cn) (sumV A0))
          (broadcastInDim S1000x512 ![0, 1] bcast_S1000x1_S1000x512_0_1
            (maximumf (cntV A1) (broadcastInDim S1000x1 ![] bcast_S_S1000x1 (constant (F := F) S_ .f32 0x3F800000#32)))))
        (broadcastInDim S1000x512 ![] bcast_S_S1000x512 (constant (F := F) S_ .f32 0x3F000000#32)))
      (broadcastInDim S1000x512 ![] bcast_S_S1000x512 (id (constant (F := F) S_ .f32 0x00000000#32))))

end Terms

/-! ## The term read at an index -/

section Read

open scoped BigOperators

/-- The leading row `o` of a rank-3 array, kept as a block of one row, reads the array at row `o`. -/
theorem slice3_lead {α : Type} {n0 n1 n2 : Nat} (o : Nat) (X : (⟨3, ![n0, n1, n2]⟩ : Shape).Idx → α)
    (h : (⟨3, ![n0, n1, n2]⟩ : Shape).Slices ![o, 0, 0] ⟨3, ![1, n1, n2]⟩) (u : Fin 1) (b : Fin n1) (e : Fin n2) (k : Fin n0)
    (hk : k.val = o) : extractStridedSlice ⟨3, ![1, n1, n2]⟩ ![o, 0, 0] X h (ix3 u b e) = X (ix3 k b e) :=
  extractStridedSlice_apply _ _ _ _ _ (fun ax => by
    match ax with
    | ⟨0, _⟩ => show k.val = o + u.val; omega
    | ⟨1, _⟩ => exact (Nat.zero_add _).symm
    | ⟨2, _⟩ => exact (Nat.zero_add _).symm)

/-- A row of `a` entries cast to a column reads, at `(i, 0)`, the row at `(0, i)`. -/
theorem shapeCast_row_col {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- A one-entry rank-3 array cast to a scalar reads its entry. -/
theorem shapeCast_unit_scalar {α : Type} (x : (⟨3, ![1, 1, 1]⟩ : Shape).Idx → α)
    (h : (⟨3, ![1, 1, 1]⟩ : Shape).ShapeCasts ⟨0, ![]⟩) (i : (⟨0, ![]⟩ : Shape).Idx) :
    shapeCast ⟨0, ![]⟩ x h i = x (ix3 (0 : Fin 1) (0 : Fin 1) (0 : Fin 1)) :=
  shapeCast_apply x h _ _ (by
    rw [Shape.rowMajor_val_three]
    have h2 := ((⟨0, ![]⟩ : Shape).rowMajor i).isLt
    have h3 : (⟨0, ![]⟩ : Shape).numel = 1 := by decide
    show (0 * 1 + 0) * 1 + 0 = _
    omega)

theorem sumV_apply (A0 : CenterLoss.SO0.Idx → EReal) (c : Fin 1000) (d : Fin 512) :
    sumV (F := Ideal) A0 (ix2 c d) = CenterLoss.tSum A0 c d := by
  show shapeCast S1000x512 (extractStridedSlice S1x1000x512 ![0, 0, 0] A0 slices_S2x1000x512_S1x1000x512_0_0_0) shapeCasts_S1x1000x512_S1000x512 (ix2 c d)
      + shapeCast S1000x512 (extractStridedSlice S1x1000x512 ![1, 0, 0] A0 slices_S2x1000x512_S1x1000x512_1_0_0) shapeCasts_S1x1000x512_S1000x512 (ix2 c d)
      = A0 (ix3 0 c d) + A0 (ix3 1 c d)
  refine congrArg₂ (· + ·) ?_ ?_
  · exact (shapeCast_1ab_ab_apply _ _ c d).trans (slice3_lead 0 A0 _ 0 c d 0 rfl)
  · exact (shapeCast_1ab_ab_apply _ _ c d).trans (slice3_lead 1 A0 _ 0 c d 1 rfl)

theorem cntV_apply (A1 : CenterLoss.SO1.Idx → EReal) (c : Fin 1000) (u : Fin 1) :
    cntV (F := Ideal) A1 (ix2 c u) = CenterLoss.tCnt A1 c := by
  refine (shapeCast_row_col _ shapeCasts_S1x1000_S1000x1 c u).trans ?_
  show shapeCast S1x1000 (extractStridedSlice S1x1x1000 ![0, 0, 0] A1 slices_S2x1x1000_S1x1x1000_0_0_0) shapeCasts_S1x1x1000_S1x1000 (ix2 0 c)
      + shapeCast S1x1000 (extractStridedSlice S1x1x1000 ![1, 0, 0] A1 slices_S2x1x1000_S1x1x1000_1_0_0) shapeCasts_S1x1x1000_S1x1000 (ix2 0 c)
      = A1 (ix3 0 0 c) + A1 (ix3 1 0 c)
  refine congrArg₂ (· + ·) ?_ ?_
  · exact (shapeCast_1ab_ab_apply _ _ 0 c).trans (slice3_lead 0 A1 _ 0 0 c 0 rfl)
  · exact (shapeCast_1ab_ab_apply _ _ 0 c).trans (slice3_lead 1 A1 _ 0 0 c 1 rfl)

theorem sqV_apply (A2 : CenterLoss.SO2.Idx → EReal) (i : S_.Idx) :
    sqV (F := Ideal) A2 i = CenterLoss.tSq A2 := by
  show shapeCast S_ (extractStridedSlice S1x1x1 ![0, 0, 0] A2 slices_S2x1x1_S1x1x1_0_0_0) shapeCasts_S1x1x1_S_ i
      + shapeCast S_ (extractStridedSlice S1x1x1 ![1, 0, 0] A2 slices_S2x1x1_S1x1x1_1_0_0) shapeCasts_S1x1x1_S_ i
      = A2 (ix3 0 0 0) + A2 (ix3 1 0 0)
  refine congrArg₂ (· + ·) ?_ ?_
  · exact (shapeCast_unit_scalar _ _ i).trans (slice3_lead 0 A2 _ 0 0 0 0 rfl)
  · exact (shapeCast_unit_scalar _ _ i).trans (slice3_lead 1 A2 _ 0 0 0 1 rfl)

/-- A class's coordinates put back into a reduced index. -/
theorem lift_row (h : S1000x512.Reduces [1] S1000) (c : Fin 1000) (k : Fin (S1000x512.size 1)) :
    h.lift (ix1 c) k = ix2 c (⟨k.val, k.isLt⟩ : Fin 512) := by
  funext a; apply Fin.ext
  fin_cases a <;> rfl

theorem csqV_apply (Cn : CenterLoss.SCn.Idx → EReal) (c : Fin 1000) (u : Fin 1) :
    csqV (F := Ideal) Cn (ix2 c u) = ∑ d : Fin 512, Cn (ix2 c d) * Cn (ix2 c d) := by
  have hr : S1000x512.Reduces [1] S1000 := ⟨reducesTo_S1000x512_S1000_d1.1, Nat.one_pos, reducesTo_S1000x512_S1000_d1.2⟩
  unfold csqV
  refine (broadcastInDim_apply _ bcast_S1000_S1000x1_0 _ (ix2 c u) (ix1 c) (fun a => match a with
    | ⟨0, _⟩ => by show c.val = if (1000 : Nat) = 1 then 0 else c.val; rw [if_neg (by decide)])).trans ?_
  refine (hostReduceAdd_apply _ _ reducesTo_S1000x512_S1000_d1 h_S_ (ix1 c)).trans ?_
  refine (Ideal.hostReduceAdd_single reducesTo_S1000x512_S1000_d1 hr _ _ (ix1 c)).trans ?_
  rw [show (constant (F := Ideal) S_ .f32 0x00000000#32) (Shape.Idx.first h_S_) = (0 : EReal) from Ideal.ofBits_zero_f32, zero_add]
  refine Finset.sum_congr rfl fun k _ => ?_
  rw [lift_row hr c k]
  rfl

end Read

section Read2

open scoped BigOperators

theorem lossV_apply (A0 : CenterLoss.SO0.Idx → EReal) (A1 : CenterLoss.SO1.Idx → EReal) (A2 : CenterLoss.SO2.Idx → EReal)
    (Cn : CenterLoss.SCn.Idx → EReal) (i : S_.Idx) :
    lossV (F := Ideal) A0 A1 A2 Cn i = CenterLoss.tailLoss A0 A1 A2 Cn := by
  have hz : (constant (F := Ideal) S_ .f32 0x00000000#32) (Shape.Idx.first h_S_) = (0 : EReal) := Ideal.ofBits_zero_f32
  have h1 : Host.reduceAdd (F := Ideal) (mulf (sumV (F := Ideal) A0) Cn) (constant (F := Ideal) S_ .f32 0x00000000#32) reducesTo_S1000x512_S_d0_1 h_S_ i
      = ∑ c : Fin 1000, ∑ d : Fin 512, CenterLoss.tSum A0 c d * Cn (ix2 c d) := by
    refine (hostReduceAdd_apply _ _ reducesTo_S1000x512_S_d0_1 h_S_ i).trans ?_
    refine (Ideal.hostReduceAdd_total reducesTo_S1000x512_S_d0_1 (fun b => b.elim0) _ _ i).trans ?_
    rw [hz, zero_add, sum_idx2]
    refine Finset.sum_congr rfl fun c _ => Finset.sum_congr rfl fun d _ => ?_
    show sumV (F := Ideal) A0 (ix2 c d) * Cn (ix2 c d) = _
    rw [sumV_apply]
  have h2 : Host.reduceAdd (F := Ideal) (mulf (cntV (F := Ideal) A1) (csqV (F := Ideal) Cn)) (constant (F := Ideal) S_ .f32 0x00000000#32) reducesTo_S1000x1_S_d0_1 h_S_ i
      = ∑ c : Fin 1000, CenterLoss.tCnt A1 c * ∑ d : Fin 512, Cn (ix2 c d) * Cn (ix2 c d) := by
    refine (hostReduceAdd_apply _ _ reducesTo_S1000x1_S_d0_1 h_S_ i).trans ?_
    refine (Ideal.hostReduceAdd_total reducesTo_S1000x1_S_d0_1 (fun b => b.elim0) _ _ i).trans ?_
    rw [hz, zero_add, sum_idx2]
    refine Finset.sum_congr rfl fun c _ => ?_
    rw [Fin.sum_univ_one]
    show cntV (F := Ideal) A1 (ix2 c 0) * csqV (F := Ideal) Cn (ix2 c 0) = _
    rw [cntV_apply, csqV_apply]
  show Ideal.div ((sqV (F := Ideal) A2 i - Ideal.ofBits .f32 0x40000000#32 * Host.reduceAdd (F := Ideal) (mulf (sumV (F := Ideal) A0) Cn) (constant (F := Ideal) S_ .f32 0x00000000#32) reducesTo_S1000x512_S_d0_1 h_S_ i)
      + Host.reduceAdd (F := Ideal) (mulf (cntV (F := Ideal) A1) (csqV (F := Ideal) Cn)) (constant (F := Ideal) S_ .f32 0x00000000#32) reducesTo_S1000x1_S_d0_1 h_S_ i) (Ideal.ofBits .f32 0x48000000#32) = _
  rw [h1, h2, sqV_apply, CenterLoss.Consts.ofBits_two, CenterLoss.Consts.ofBits_131072]
  rfl

/-- Choosing by "the count is positive". -/
theorem select_ogt_zero (n a b : EReal) : Scalar.select (Ideal.cmp .ogt n 0) a b = if 0 < n then a else b := by
  show (if BitVec.ofBool (decide (0 < n)) = 1 then a else b) = _
  by_cases hn : 0 < n
  · rw [if_pos hn, decide_eq_true hn]; rfl
  · rw [if_neg hn, decide_eq_false hn]; rfl

theorem newV_apply (A0 : CenterLoss.SO0.Idx → EReal) (A1 : CenterLoss.SO1.Idx → EReal) (Cn : CenterLoss.SCn.Idx → EReal)
    (c : Fin 1000) (d : Fin 512) :
    newV (F := Ideal) A0 A1 Cn (ix2 c d) = CenterLoss.tailNew A0 A1 Cn c d := by
  have hb : ∀ {α : Type} (x : S1000x1.Idx → α),
      broadcastInDim S1000x512 ![0, 1] bcast_S1000x1_S1000x512_0_1 x (ix2 c d) = x (ix2 c 0) := fun x =>
    broadcastInDim_apply _ bcast_S1000x1_S1000x512_0_1 x (ix2 c d) (ix2 c 0) (fun a => match a with
      | ⟨0, _⟩ => by show c.val = if (1000 : Nat) = 1 then 0 else c.val; rw [if_neg (by decide)]
      | ⟨1, _⟩ => by show 0 = if (1 : Nat) = 1 then 0 else d.val; rw [if_pos rfl])
  show Cn (ix2 c d) - Scalar.select
      (broadcastInDim S1000x512 ![0, 1] bcast_S1000x1_S1000x512_0_1
        (cmpf (F := Ideal) .ogt (cntV (F := Ideal) A1) (broadcastInDim S1000x1 ![] bcast_S_S1000x1 (constant (F := Ideal) S_ .f32 0x00000000#32))) (ix2 c d))
      (Ideal.div
          (broadcastInDim S1000x512 ![0, 1] bcast_S1000x1_S1000x512_0_1 (cntV (F := Ideal) A1) (ix2 c d) * Cn (ix2 c d) - sumV (F := Ideal) A0 (ix2 c d))
          (broadcastInDim S1000x512 ![0, 1] bcast_S1000x1_S1000x512_0_1
            (maximumf (cntV (F := Ideal) A1) (broadcastInDim S1000x1 ![] bcast_S_S1000x1 (constant (F := Ideal) S_ .f32 0x3F800000#32))) (ix2 c d))
        * broadcastInDim S1000x512 ![] bcast_S_S1000x512 (constant (F := Ideal) S_ .f32 0x3F000000#32) (ix2 c d))
      (broadcastInDim S1000x512 ![] bcast_S_S1000x512 (id (constant (F := Ideal) S_ .f32 0x00000000#32)) (ix2 c d)) = _
  rw [hb, hb, hb, broadcastInDim_scalar_apply, broadcastInDim_scalar_apply]
  show Cn (ix2 c d) - Scalar.select
      (Ideal.cmp .ogt (cntV (F := Ideal) A1 (ix2 c 0)) (broadcastInDim S1000x1 ![] bcast_S_S1000x1 (constant (F := Ideal) S_ .f32 0x00000000#32) (ix2 c 0)))
      (Ideal.div (cntV (F := Ideal) A1 (ix2 c 0) * Cn (ix2 c d) - sumV (F := Ideal) A0 (ix2 c d))
          (max (cntV (F := Ideal) A1 (ix2 c 0)) (broadcastInDim S1000x1 ![] bcast_S_S1000x1 (constant (F := Ideal) S_ .f32 0x3F800000#32) (ix2 c 0)))
        * Ideal.ofBits .f32 0x3F000000#32)
      (Ideal.ofBits .f32 0x00000000#32) = _
  rw [broadcastInDim_scalar_apply, broadcastInDim_scalar_apply, cntV_apply, sumV_apply]
  show Cn (ix2 c d) - Scalar.select (Ideal.cmp .ogt (CenterLoss.tCnt A1 c) (Ideal.ofBits .f32 0x00000000#32))
      (Ideal.div (CenterLoss.tCnt A1 c * Cn (ix2 c d) - CenterLoss.tSum A0 c d) (max (CenterLoss.tCnt A1 c) (Ideal.ofBits .f32 0x3F800000#32))
        * Ideal.ofBits .f32 0x3F000000#32)
      (Ideal.ofBits .f32 0x00000000#32) = _
  rw [Ideal.ofBits_zero_f32, CenterLoss.Consts.ofBits_one, CenterLoss.Consts.ofBits_half, select_ogt_zero]
  rfl

end Read2

/-- The loss term is the specification's loss, as a rank-0 array. -/
theorem lossV_eq (A0 : CenterLoss.SO0.Idx → EReal) (A1 : CenterLoss.SO1.Idx → EReal) (A2 : CenterLoss.SO2.Idx → EReal)
    (Cn : CenterLoss.SCn.Idx → EReal) :
    lossV (F := Ideal) A0 A1 A2 Cn = CenterLoss.lossArr (CenterLoss.tailLoss A0 A1 A2 Cn) :=
  funext fun i => lossV_apply A0 A1 A2 Cn i

/-- The updated-centers term is the specification's, as a 1000 x 512 array. -/
theorem newV_eq (A0 : CenterLoss.SO0.Idx → EReal) (A1 : CenterLoss.SO1.Idx → EReal) (Cn : CenterLoss.SCn.Idx → EReal) :
    newV (F := Ideal) A0 A1 Cn = CenterLoss.newArr (CenterLoss.tailNew A0 A1 Cn) := by
  funext j
  obtain ⟨c, d, rfl⟩ : ∃ (c : Fin 1000) (d : Fin 512), j = ix2 c d := ⟨j 0, j 1, eq_ix2 j⟩
  rw [newV_apply, CenterLoss.newArr_ix2]

/-! ## The run -/

variable (m : (ℓ : Loc nD τ sig) → Buf (Elt Ideal) ℓ) (ρ : Dev nD → PrngReg)

/-- The three arrays the grid leaves on core `c`: per-core feature sums, counts and sums of squares. -/
abbrev O0 (c : Dev nD) : CenterLoss.SO0.Idx → EReal := (dats (F := Ideal) m 0 c).arrAt 2 cfg0.N
abbrev O1 (c : Dev nD) : CenterLoss.SO1.Idx → EReal := (dats (F := Ideal) m 0 c).arrAt 3 cfg0.N
abbrev O2 (c : Dev nD) : CenterLoss.SO2.Idx → EReal := (dats (F := Ideal) m 0 c).arrAt 4 cfg0.N

/-- What the lines after the grid find in the three output arrays and in the centers: the arrays as the grid leaves
    them, the centers as launched. -/
theorem found0 (c : Dev nD) :
    Pipeline.withArrays (cfgs 0).spec c (V0 m c) (fun w => (dats (F := Ideal) m 0 c).arrAt w (cfgs 0).N) (Proc.devRef .tc main_v1_0) = O0 m c :=
  Pipeline.withArrays_arr spec0 launch0.win.arr_inj c _ _ 2
theorem found1 (c : Dev nD) :
    Pipeline.withArrays (cfgs 0).spec c (V0 m c) (fun w => (dats (F := Ideal) m 0 c).arrAt w (cfgs 0).N) (Proc.devRef .tc main_v1_1) = O1 m c :=
  Pipeline.withArrays_arr spec0 launch0.win.arr_inj c _ _ 3
theorem found2 (c : Dev nD) :
    Pipeline.withArrays (cfgs 0).spec c (V0 m c) (fun w => (dats (F := Ideal) m 0 c).arrAt w (cfgs 0).N) (Proc.devRef .tc main_v1_2) = O2 m c :=
  Pipeline.withArrays_arr spec0 launch0.win.arr_inj c _ _ 4
theorem foundC (c : Dev nD) :
    Pipeline.withArrays (cfgs 0).spec c (V0 m c) (fun w => (dats (F := Ideal) m 0 c).arrAt w (cfgs 0).N) (Proc.devRef .tc main_arg2) = argC m c :=
  (Pipeline.withArrays_of_ne _ c (V0 m c) _ main_arg2 (by exact (by decide : ∀ w, Pipeline.arrRef spec0 w ≠ main_arg2))).trans (V_main_arg2 m c)

set_option maxHeartbeats 4000000 in
/-- The loss the lines after the grid leave is the loss term of the three arrays and the centers. -/
theorem tail_loss (c : Dev nD) :
    (Pipeline.afterTail₀ cfgs (dats (F := Ideal) m) 0 (V0 m) [hostOps1, hostOps1_1, hostOps1_2] c main_v28 : S_.Idx → EReal)
      = lossV (F := Ideal) (O0 m c) (O1 m c) (O2 m c) (argC m c) := by
  unfold Pipeline.afterTail₀
  simp only [hostOps1, hostOps1_1, hostOps1_2, List.flatten_cons, List.flatten_nil, List.append_nil, List.cons_append, List.nil_append]
  after_results_simp
  rw [found0, found1, found2, foundC]
  rfl

set_option maxHeartbeats 4000000 in
/-- The centers the lines after the grid leave are the updated-centers term of the two arrays and the centers. -/
theorem tail_new (c : Dev nD) :
    (Pipeline.afterTail₀ cfgs (dats (F := Ideal) m) 0 (V0 m) [hostOps1, hostOps1_1, hostOps1_2] c main_v41 : S1000x512.Idx → EReal)
      = newV (F := Ideal) (O0 m c) (O1 m c) (argC m c) := by
  unfold Pipeline.afterTail₀
  simp only [hostOps1, hostOps1_1, hostOps1_2, List.flatten_cons, List.flatten_nil, List.append_nil, List.cons_append, List.nil_append]
  after_results_simp
  rw [found0, found1, foundC]
  rfl

theorem run_values :
    θ_run (defs (F := Ideal)) (onTc (τ := τ) (main (F := Ideal))) ⟨m, fun _ => 0, ρ⟩ (fun r => ∀ c : Dev nD,
      r.2.mem ((c.tc : Thread nD τ).loc main_v28)
          = CenterLoss.lossArr (CenterLoss.tailLoss (O0 m c) (O1 m c) (O2 m c) (argC m c))
      ∧ r.2.mem ((c.tc : Thread nD τ).loc main_v41)
          = CenterLoss.newArr (CenterLoss.tailNew (O0 m c) (O1 m c) (argC m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ h c =>
    ⟨((h c).2 main_v28 (Pipeline.mem_restRefs_of main_v28 (by decide) (by decide))).trans
        ((tail_loss m c).trans (lossV_eq _ _ _ _)),
      ((h c).2 main_v41 (Pipeline.mem_restRefs_of main_v41 (by decide) (by decide))).trans
        ((tail_new m c).trans (newV_eq _ _ _)),
      ((h c).1 0).trans (((dats (F := Ideal) m 0 c).arrAt_in 0 rfl _).trans ((A_eq m c 0).trans (V_main_arg0 m c))),
      ((h c).2 main_arg1 (Pipeline.mem_restRefs_of main_arg1 (by decide) (by decide))).trans (W_main_arg1 m (dats (F := Ideal) m) c),
      ((h c).2 main_arg2 (Pipeline.mem_restRefs_of main_arg2 (by decide) (by decide))).trans (W_main_arg2 m (dats (F := Ideal) m) c)⟩)
    (run_main (F := Ideal) m ρ)

end Cert.KernelIdeal.Tail

end
-- ==== Proof.KPieces.lean ====
/-
  What each control case of the kernel body leaves in the three accumulators and, at a core's last step, in the three
  output blocks, as the body's own arithmetic applied to the step's two input blocks and the accumulators it found.
  First step of a core: the accumulators are reset to zero, then updated.  Other steps: updated over what the step
  before left.  Last step: the updated accumulators are also copied out.
-/
import proofs.«402336_j7009386627592_3_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.SL.Sem Cert.KernelIdeal Cert.KernelIdeal.Gen

variable {F : FTy → Type} [FloatOps F]

/-- The offsets of a whole block of rank two are all zero. -/
private theorem hz2 : (![0, 0] : Fin 2 → Nat) = fun _ => 0 := funext fun a => by fin_cases a <;> rfl

/-- The offsets of a whole block of rank three are all zero. -/
private theorem hz3 : (![0, 0, 0] : Fin 3 → Nat) = fun _ => 0 := funext fun a => by fin_cases a <;> rfl

/-! ## First step of a core -/

theorem sums_A (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (arg6 : Memref sig .tc .vmem S1x1x1 .f32) (harg6 : arg6.IsWhole) (arg7 : Memref sig .tc .vmem S1000x512 .f32) (harg7 : arg7.IsWhole) (arg8 : Memref sig .tc .vmem S1x1000 .f32) (harg8 : arg8.IsWhole) (arg9 : Memref sig .tc .vmem S1x1 .f32) (harg9 : arg9.IsWhole) (hc0 : cond0_0 i) (hc1 : ¬cond0_1 i) (x0 : Vec F S2048x512 .f32) (x1 : Vec F S2048x1 .i32) :
    sout0_A_0 c i arg2 harg2 arg3 harg3 arg4 harg4 arg5 harg5 arg6 harg6 arg7 harg7 arg8 harg8 arg9 harg9 hc0 hc1 x0 x1 = k0_pay1 x0 (k0_pay9 x1) (k0_pay12 x0) (k0_pay13 x0) (k0_pay5 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S1000x512) hz2, View.readCov_unit_zero (S := S1000x512) _ hz2]
  simp only [View.readAt_eq_ld, harg2.read_unread, harg3.read_unread, View.ld_unit_zero (S := S2048x512) hz2, View.ld_unit_zero (S := S2048x1) hz2]

theorem cnt_A (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (arg6 : Memref sig .tc .vmem S1x1x1 .f32) (harg6 : arg6.IsWhole) (arg7 : Memref sig .tc .vmem S1000x512 .f32) (harg7 : arg7.IsWhole) (arg8 : Memref sig .tc .vmem S1x1000 .f32) (harg8 : arg8.IsWhole) (arg9 : Memref sig .tc .vmem S1x1 .f32) (harg9 : arg9.IsWhole) (hc0 : cond0_0 i) (hc1 : ¬cond0_1 i) (x0 : Vec F S2048x512 .f32) (x1 : Vec F S2048x1 .i32) :
    sout0_A_1 c i arg2 harg2 arg3 harg3 arg4 harg4 arg5 harg5 arg6 harg6 arg7 harg7 arg8 harg8 arg9 harg9 hc0 hc1 x0 x1 = k0_pay10 x1 (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S1x1000) hz2, View.readCov_unit_zero (S := S1x1000) _ hz2]
  simp only [View.readAt_eq_ld, harg2.read_unread, harg3.read_unread, View.ld_unit_zero (S := S2048x512) hz2, View.ld_unit_zero (S := S2048x1) hz2]

theorem sq_A (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (arg6 : Memref sig .tc .vmem S1x1x1 .f32) (harg6 : arg6.IsWhole) (arg7 : Memref sig .tc .vmem S1000x512 .f32) (harg7 : arg7.IsWhole) (arg8 : Memref sig .tc .vmem S1x1000 .f32) (harg8 : arg8.IsWhole) (arg9 : Memref sig .tc .vmem S1x1 .f32) (harg9 : arg9.IsWhole) (hc0 : cond0_0 i) (hc1 : ¬cond0_1 i) (x0 : Vec F S2048x512 .f32) (x1 : Vec F S2048x1 .i32) :
    sout0_A_2 c i arg2 harg2 arg3 harg3 arg4 harg4 arg5 harg5 arg6 harg6 arg7 harg7 arg8 harg8 arg9 harg9 hc0 hc1 x0 x1 = k0_pay11 x0 (k0_pay7 (F := F)) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread, View.ld_unit_zero (S := S2048x512) hz2, View.ld_unit_zero (S := S2048x1) hz2]

/-! ## A step that is neither first nor last -/

theorem sums_B (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (arg6 : Memref sig .tc .vmem S1x1x1 .f32) (harg6 : arg6.IsWhole) (arg7 : Memref sig .tc .vmem S1000x512 .f32) (harg7 : arg7.IsWhole) (arg8 : Memref sig .tc .vmem S1x1000 .f32) (harg8 : arg8.IsWhole) (arg9 : Memref sig .tc .vmem S1x1 .f32) (harg9 : arg9.IsWhole) (hc0 : ¬cond0_0 i) (hc1 : ¬cond0_1 i) (x0 : Vec F S2048x512 .f32) (x1 : Vec F S2048x1 .i32) (xs0 : Vec F S1000x512 .f32) (xs1 : Vec F S1x1000 .f32) (xs2 : Vec F S1x1 .f32) :
    sout0_B_0 c i arg2 harg2 arg3 harg3 arg4 harg4 arg5 harg5 arg6 harg6 arg7 harg7 arg8 harg8 arg9 harg9 hc0 hc1 x0 x1 xs0 xs1 xs2 = k0_pay1 x0 (k0_pay9 x1) (k0_pay12 x0) (k0_pay13 x0) xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero (S := S1000x512) hz2]
  simp only [View.readAt_eq_ld, harg2.read_unread, harg3.read_unread, View.ld_unit_zero (S := S2048x512) hz2, View.ld_unit_zero (S := S2048x1) hz2, harg7.read_unread, harg8.read_unread, harg9.read_unread, View.ld_unit_zero (S := S1000x512) hz2, View.ld_unit_zero (S := S1x1000) hz2, View.ld_unit_zero (S := S1x1) hz2]

theorem cnt_B (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (arg6 : Memref sig .tc .vmem S1x1x1 .f32) (harg6 : arg6.IsWhole) (arg7 : Memref sig .tc .vmem S1000x512 .f32) (harg7 : arg7.IsWhole) (arg8 : Memref sig .tc .vmem S1x1000 .f32) (harg8 : arg8.IsWhole) (arg9 : Memref sig .tc .vmem S1x1 .f32) (harg9 : arg9.IsWhole) (hc0 : ¬cond0_0 i) (hc1 : ¬cond0_1 i) (x0 : Vec F S2048x512 .f32) (x1 : Vec F S2048x1 .i32) (xs0 : Vec F S1000x512 .f32) (xs1 : Vec F S1x1000 .f32) (xs2 : Vec F S1x1 .f32) :
    sout0_B_1 c i arg2 harg2 arg3 harg3 arg4 harg4 arg5 harg5 arg6 harg6 arg7 harg7 arg8 harg8 arg9 harg9 hc0 hc1 x0 x1 xs0 xs1 xs2 = k0_pay10 x1 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero (S := S1x1000) hz2]
  simp only [View.readAt_eq_ld, harg2.read_unread, harg3.read_unread, View.ld_unit_zero (S := S2048x512) hz2, View.ld_unit_zero (S := S2048x1) hz2, harg7.read_unread, harg8.read_unread, harg9.read_unread, View.ld_unit_zero (S := S1000x512) hz2, View.ld_unit_zero (S := S1x1000) hz2, View.ld_unit_zero (S := S1x1) hz2]

theorem sq_B (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (arg6 : Memref sig .tc .vmem S1x1x1 .f32) (harg6 : arg6.IsWhole) (arg7 : Memref sig .tc .vmem S1000x512 .f32) (harg7 : arg7.IsWhole) (arg8 : Memref sig .tc .vmem S1x1000 .f32) (harg8 : arg8.IsWhole) (arg9 : Memref sig .tc .vmem S1x1 .f32) (harg9 : arg9.IsWhole) (hc0 : ¬cond0_0 i) (hc1 : ¬cond0_1 i) (x0 : Vec F S2048x512 .f32) (x1 : Vec F S2048x1 .i32) (xs0 : Vec F S1000x512 .f32) (xs1 : Vec F S1x1000 .f32) (xs2 : Vec F S1x1 .f32) :
    sout0_B_2 c i arg2 harg2 arg3 harg3 arg4 harg4 arg5 harg5 arg6 harg6 arg7 harg7 arg8 harg8 arg9 harg9 hc0 hc1 x0 x1 xs0 xs1 xs2 = k0_pay11 x0 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero (S := S1x1) hz2]
  simp only [View.readAt_eq_ld, harg2.read_unread, harg3.read_unread, View.ld_unit_zero (S := S2048x512) hz2, View.ld_unit_zero (S := S2048x1) hz2, harg7.read_unread, harg8.read_unread, harg9.read_unread, View.ld_unit_zero (S := S1000x512) hz2, View.ld_unit_zero (S := S1x1000) hz2, View.ld_unit_zero (S := S1x1) hz2]

/-! ## Last step of a core -/

theorem sums_C (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (arg6 : Memref sig .tc .vmem S1x1x1 .f32) (harg6 : arg6.IsWhole) (arg7 : Memref sig .tc .vmem S1000x512 .f32) (harg7 : arg7.IsWhole) (arg8 : Memref sig .tc .vmem S1x1000 .f32) (harg8 : arg8.IsWhole) (arg9 : Memref sig .tc .vmem S1x1 .f32) (harg9 : arg9.IsWhole) (hc0 : ¬cond0_0 i) (hc1 : cond0_1 i) (x0 : Vec F S2048x512 .f32) (x1 : Vec F S2048x1 .i32) (xs0 : Vec F S1000x512 .f32) (xs1 : Vec F S1x1000 .f32) (xs2 : Vec F S1x1 .f32) :
    sout0_C_0 c i arg2 harg2 arg3 harg3 arg4 harg4 arg5 harg5 arg6 harg6 arg7 harg7 arg8 harg8 arg9 harg9 hc0 hc1 x0 x1 xs0 xs1 xs2 = k0_pay1 x0 (k0_pay9 x1) (k0_pay12 x0) (k0_pay13 x0) xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero (S := S1000x512) hz2]
  simp only [View.readAt_eq_ld, harg2.read_unread, harg3.read_unread, View.ld_unit_zero (S := S2048x512) hz2, View.ld_unit_zero (S := S2048x1) hz2, harg7.read_unread, harg8.read_unread, harg9.read_unread, View.ld_unit_zero (S := S1000x512) hz2, View.ld_unit_zero (S := S1x1000) hz2, View.ld_unit_zero (S := S1x1) hz2]

theorem cnt_C (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (arg6 : Memref sig .tc .vmem S1x1x1 .f32) (harg6 : arg6.IsWhole) (arg7 : Memref sig .tc .vmem S1000x512 .f32) (harg7 : arg7.IsWhole) (arg8 : Memref sig .tc .vmem S1x1000 .f32) (harg8 : arg8.IsWhole) (arg9 : Memref sig .tc .vmem S1x1 .f32) (harg9 : arg9.IsWhole) (hc0 : ¬cond0_0 i) (hc1 : cond0_1 i) (x0 : Vec F S2048x512 .f32) (x1 : Vec F S2048x1 .i32) (xs0 : Vec F S1000x512 .f32) (xs1 : Vec F S1x1000 .f32) (xs2 : Vec F S1x1 .f32) :
    sout0_C_1 c i arg2 harg2 arg3 harg3 arg4 harg4 arg5 harg5 arg6 harg6 arg7 harg7 arg8 harg8 arg9 harg9 hc0 hc1 x0 x1 xs0 xs1 xs2 = k0_pay10 x1 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero (S := S1x1000) hz2]
  simp only [View.readAt_eq_ld, harg2.read_unread, harg3.read_unread, View.ld_unit_zero (S := S2048x512) hz2, View.ld_unit_zero (S := S2048x1) hz2, harg7.read_unread, harg8.read_unread, harg9.read_unread, View.ld_unit_zero (S := S1000x512) hz2, View.ld_unit_zero (S := S1x1000) hz2, View.ld_unit_zero (S := S1x1) hz2]

theorem sq_C (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (arg6 : Memref sig .tc .vmem S1x1x1 .f32) (harg6 : arg6.IsWhole) (arg7 : Memref sig .tc .vmem S1000x512 .f32) (harg7 : arg7.IsWhole) (arg8 : Memref sig .tc .vmem S1x1000 .f32) (harg8 : arg8.IsWhole) (arg9 : Memref sig .tc .vmem S1x1 .f32) (harg9 : arg9.IsWhole) (hc0 : ¬cond0_0 i) (hc1 : cond0_1 i) (x0 : Vec F S2048x512 .f32) (x1 : Vec F S2048x1 .i32) (xs0 : Vec F S1000x512 .f32) (xs1 : Vec F S1x1000 .f32) (xs2 : Vec F S1x1 .f32) :
    sout0_C_2 c i arg2 harg2 arg3 harg3 arg4 harg4 arg5 harg5 arg6 harg6 arg7 harg7 arg8 harg8 arg9 harg9 hc0 hc1 x0 x1 xs0 xs1 xs2 = k0_pay11 x0 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero (S := S1x1) hz2]
  simp only [View.readAt_eq_ld, harg2.read_unread, harg3.read_unread, View.ld_unit_zero (S := S2048x512) hz2, View.ld_unit_zero (S := S2048x1) hz2, harg7.read_unread, harg8.read_unread, harg9.read_unread, View.ld_unit_zero (S := S1000x512) hz2, View.ld_unit_zero (S := S1x1000) hz2, View.ld_unit_zero (S := S1x1) hz2]

theorem outSums_C (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (arg6 : Memref sig .tc .vmem S1x1x1 .f32) (harg6 : arg6.IsWhole) (arg7 : Memref sig .tc .vmem S1000x512 .f32) (harg7 : arg7.IsWhole) (arg8 : Memref sig .tc .vmem S1x1000 .f32) (harg8 : arg8.IsWhole) (arg9 : Memref sig .tc .vmem S1x1 .f32) (harg9 : arg9.IsWhole) (hc0 : ¬cond0_0 i) (hc1 : cond0_1 i) (x0 : Vec F S2048x512 .f32) (x1 : Vec F S2048x1 .i32) (xs0 : Vec F S1000x512 .f32) (xs1 : Vec F S1x1000 .f32) (xs2 : Vec F S1x1 .f32) :
    out0_C_2 c i arg2 harg2 arg3 harg3 arg4 harg4 arg5 harg5 arg6 harg6 arg7 harg7 arg8 harg8 arg9 harg9 hc0 hc1 x0 x1 xs0 xs1 xs2 = k0_pay2 (k0_pay1 x0 (k0_pay9 x1) (k0_pay12 x0) (k0_pay13 x0) xs0) := by
  unfold out0_C_2
  rw [View.read_writes_eq_canon _ _ _ (cover0_C_2 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero (S := S1x1000x512) hz3]
  simp only [View.readAt_eq_ld, harg2.read_unread, harg3.read_unread, View.ld_unit_zero (S := S2048x512) hz2, View.ld_unit_zero (S := S2048x1) hz2, harg7.read_unread, harg8.read_unread, harg9.read_unread, View.ld_unit_zero (S := S1000x512) hz2, View.ld_unit_zero (S := S1x1000) hz2, View.ld_unit_zero (S := S1x1) hz2, View.readCov_unit_zero (S := S1000x512) _ hz2, View.readCov_unit_zero (S := S1x1000) _ hz2, View.readCov_unit_zero (S := S1x1) _ hz2]

theorem outCnt_C (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (arg6 : Memref sig .tc .vmem S1x1x1 .f32) (harg6 : arg6.IsWhole) (arg7 : Memref sig .tc .vmem S1000x512 .f32) (harg7 : arg7.IsWhole) (arg8 : Memref sig .tc .vmem S1x1000 .f32) (harg8 : arg8.IsWhole) (arg9 : Memref sig .tc .vmem S1x1 .f32) (harg9 : arg9.IsWhole) (hc0 : ¬cond0_0 i) (hc1 : cond0_1 i) (x0 : Vec F S2048x512 .f32) (x1 : Vec F S2048x1 .i32) (xs0 : Vec F S1000x512 .f32) (xs1 : Vec F S1x1000 .f32) (xs2 : Vec F S1x1 .f32) :
    out0_C_3 c i arg2 harg2 arg3 harg3 arg4 harg4 arg5 harg5 arg6 harg6 arg7 harg7 arg8 harg8 arg9 harg9 hc0 hc1 x0 x1 xs0 xs1 xs2 = k0_pay3 (k0_pay10 x1 xs1) := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero (S := S1x1x1000) hz3]
  simp only [View.readAt_eq_ld, harg2.read_unread, harg3.read_unread, View.ld_unit_zero (S := S2048x512) hz2, View.ld_unit_zero (S := S2048x1) hz2, harg7.read_unread, harg8.read_unread, harg9.read_unread, View.ld_unit_zero (S := S1000x512) hz2, View.ld_unit_zero (S := S1x1000) hz2, View.ld_unit_zero (S := S1x1) hz2, View.readCov_unit_zero (S := S1000x512) _ hz2, View.readCov_unit_zero (S := S1x1000) _ hz2, View.readCov_unit_zero (S := S1x1) _ hz2]

theorem outSq_C (c : Dev nD) (i : grid0.Coords) (arg2 : Memref sig .tc .vmem S2048x512 .f32) (harg2 : arg2.IsWhole) (arg3 : Memref sig .tc .vmem S2048x1 .i32) (harg3 : arg3.IsWhole) (arg4 : Memref sig .tc .vmem S1x1000x512 .f32) (harg4 : arg4.IsWhole) (arg5 : Memref sig .tc .vmem S1x1x1000 .f32) (harg5 : arg5.IsWhole) (arg6 : Memref sig .tc .vmem S1x1x1 .f32) (harg6 : arg6.IsWhole) (arg7 : Memref sig .tc .vmem S1000x512 .f32) (harg7 : arg7.IsWhole) (arg8 : Memref sig .tc .vmem S1x1000 .f32) (harg8 : arg8.IsWhole) (arg9 : Memref sig .tc .vmem S1x1 .f32) (harg9 : arg9.IsWhole) (hc0 : ¬cond0_0 i) (hc1 : cond0_1 i) (x0 : Vec F S2048x512 .f32) (x1 : Vec F S2048x1 .i32) (xs0 : Vec F S1000x512 .f32) (xs1 : Vec F S1x1000 .f32) (xs2 : Vec F S1x1 .f32) :
    out0_C_4 c i arg2 harg2 arg3 harg3 arg4 harg4 arg5 harg5 arg6 harg6 arg7 harg7 arg8 harg8 arg9 harg9 hc0 hc1 x0 x1 xs0 xs1 xs2 = k0_pay4 (k0_pay11 x0 xs2) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero (S := S1x1x1) hz3]
  simp only [View.readAt_eq_ld, harg2.read_unread, harg3.read_unread, View.ld_unit_zero (S := S2048x512) hz2, View.ld_unit_zero (S := S2048x1) hz2, harg7.read_unread, harg8.read_unread, harg9.read_unread, View.ld_unit_zero (S := S1000x512) hz2, View.ld_unit_zero (S := S1x1000) hz2, View.ld_unit_zero (S := S1x1) hz2, View.readCov_unit_zero (S := S1000x512) _ hz2, View.readCov_unit_zero (S := S1x1000) _ hz2, View.readCov_unit_zero (S := S1x1) _ hz2]

end Cert.KernelIdeal.Pieces

end
-- ==== Proof.KOneHot.lean ====
/-
  The one-hot matrix of a tile of labels: entry (r, c) is one when sample r of the tile is labelled c and zero
  otherwise.  The body clamps each label into [0, 999] first; on labels that already name a class the clamp changes
  nothing, and the comparison of the column number with the label is a comparison of natural numbers.
-/
import proofs.«402336_j7009386627592_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.ValueIdx Cert.KernelIdeal Cert.KernelIdeal.Gen
open scoped BigOperators

/-- A word below 1000 is its own clamp into [0, 999] as a signed word: it is not negative and not above 999. -/
private theorem clamp_id (x : BitVec 32) (hx : x.toNat < 1000) : IntOp.minsi 999#32 (IntOp.maxsi 0#32 x) = x := by
  have e := BitVec.toInt_eq_toNat_cond x
  have h0 : BitVec.slt x 0#32 = false := by
    rw [BitVec.slt_eq_decide]; simp; omega
  have h1 : BitVec.slt 999#32 x = false := by
    rw [BitVec.slt_eq_decide]; simp; omega
  unfold IntOp.minsi IntOp.maxsi
  rw [h0]; simp [h1]

/-- The comparison of the column number with a label, widened to a word and read as a number, is one when the two
    agree as natural numbers and zero otherwise. -/
private theorem bit_val (x : BitVec 32) (c : ℕ) (hc : c < 1000) :
    FloatOps.sitofp (F := Ideal) .f32 ((IntOp.cmpi .eq (BitVec.ofNat 32 c) x).setWidth 32)
      = if x.toNat = c then (1 : EReal) else 0 := by
  show (((((IntOp.cmpi .eq (BitVec.ofNat 32 c) x).setWidth 32).toInt : ℤ) : ℝ) : EReal) = _
  by_cases h : x.toNat = c
  · have hx : BitVec.ofNat 32 c = x := by
      apply BitVec.eq_of_toNat_eq; rw [BitVec.toNat_ofNat, h]; omega
    rw [if_pos h, hx]
    have e1 : (IntOp.cmpi .eq x x).setWidth 32 = 1#32 := by simp [IntOp.cmpi]
    rw [e1]; simp
  · have hx : BitVec.ofNat 32 c ≠ x := by
      intro e; apply h; rw [← e, BitVec.toNat_ofNat]; omega
    rw [if_neg h]
    have hb : (BitVec.ofNat 32 c == x) = false := beq_eq_false_iff_ne.2 hx
    have e0 : (IntOp.cmpi .eq (BitVec.ofNat 32 c) x).setWidth 32 = 0#32 := by
      unfold IntOp.cmpi; rw [hb]; rfl
    rw [e0]; simp

/-- The one-hot matrix at (r, c): the column number c against row r's label, which the clamp leaves as it is. -/
theorem onehot_apply (x1 : Vec Ideal S2048x1 .i32) (hL : ∀ r : Fin 2048, (x1 (ix2 r 0)).toNat < 1000)
    (r : Fin 2048) (c : Fin 1000) :
    k0_pay8 (F := Ideal) x1 (ix2 r c) = if (x1 (ix2 r 0)).toNat = c.val then (1 : EReal) else 0 := by
  unfold k0_pay8
  dsimp only
  rw [sitofp_apply, extui_apply]
  show FloatOps.sitofp .f32 ((IntOp.cmpi .eq (iota .tc S2048x1000 32 [1] iota_S2048x1000_d1_w32 (ix2 r c))
    (broadcastTo S2048x1000 _ broadcasts_S2048x1_S2048x1000 (ix2 r c))).setWidth 32) = _
  rw [iota_single_apply]
  rw [broadcastTo_apply _ _ (ix2 r c) (ix2 r 0) (by
    intro a
    match a with
    | ⟨0, _⟩ => rfl
    | ⟨1, _⟩ => rfl)]
  show FloatOps.sitofp .f32 ((IntOp.cmpi .eq (BitVec.ofNat 32 c.val)
    (IntOp.minsi 999#32 (IntOp.maxsi 0#32 (shapeCast S2048x1 x1 shapeCasts_S2048x1_S2048x1 (ix2 r 0))))).setWidth 32) = _
  rw [shapeCast_self, clamp_id _ (hL r), bit_val _ _ c.isLt]

end Cert.KernelIdeal.Tile

end
-- ==== Proof.KCnt.lean ====
/-
  One step's update of the count and sum-of-squares accumulators, read at an entry: the accumulator plus the tile's
  column sum of the one-hot matrix, and the accumulator plus the sum of the tile's squared features.  Also the reset
  values (zero everywhere) and the copies out at a core's last step (the same entries under one more unit axis).
-/
import proofs.«402336_j7009386627592_3_alg».proof.Proof.KOneHot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.ValueIdx Cert.KernelIdeal Cert.KernelIdeal.Gen
open scoped BigOperators

/-- The lane sum over the rows of a 2048 x 1000 array, read at column c: the sum over the rows of the entries of
    that column. -/
private theorem colsum_apply (v : FVec Ideal S2048x1000 .f32) (hφ : FKind.Formats .f32)
    (hacc : (0x00000000#32 : BitVec 32) = 0x00000000#32) (c : Fin 1000) :
    multiReduction (F := Ideal) .add [0] S1000 v 0x00000000#32 reduces_S2048x1000_S1000 hφ hacc (ix1 c)
      = ∑ r : Fin 2048, v (ix2 r c) := by
  refine (Ideal.multiReduction_add_single v 0x00000000#32 reduces_S2048x1000_S1000 hφ hacc (ix1 c)).trans ?_
  refine Finset.sum_congr rfl fun k _ => congrArg v ?_
  funext a
  match a with
  | ⟨0, _⟩ => rfl
  | ⟨1, _⟩ => rfl

theorem pay_cnt (x1 : Vec Ideal S2048x1 .i32) (acc : Vec Ideal S1x1000 .f32)
    (hL : ∀ r : Fin 2048, (x1 (ix2 r 0)).toNat < 1000) (c : Fin 1000) :
    k0_pay10 (F := Ideal) x1 acc (ix2 0 c)
      = acc (ix2 0 c) + ∑ r : Fin 2048, if (x1 (ix2 r 0)).toNat = c.val then (1 : EReal) else 0 := by
  unfold k0_pay10
  dsimp only
  rw [shapeCast_self, addf_apply, shapeCast_a_1a_apply, colsum_apply]
  exact congrArg _ (Finset.sum_congr rfl fun r _ => onehot_apply x1 hL r c)

/-- A shape cast read at an index is the operand at the index with the same row-major position. -/
private theorem shapeCast_eq {s t : Shape} {α : Type} (x : s.Idx → α) (h : s.ShapeCasts t) (j : t.Idx) :
    shapeCast t x h j = x (Shape.reshapeEquiv h j) := rfl

/-- The sum over both tile axes of a 1 x 2048 x 512 array, read at its one entry: the sum of all the entries. -/
private theorem total_apply (v : FVec Ideal S1x2048x512 .f32) (hφ : FKind.Formats .f32)
    (hacc : (0x00000000#32 : BitVec 32) = 0x00000000#32) (j : S1.Idx) :
    multiReduction (F := Ideal) .add [1, 2] S1 v 0x00000000#32 reduces_S1x2048x512_S1 hφ hacc j
      = ∑ i : S1x2048x512.Idx, v i :=
  Ideal.multiReduction_add_total v 0x00000000#32 reduces_S1x2048x512_S1
    (fun b => match b with | ⟨0, _⟩ => rfl) hφ hacc j

theorem pay_sq (x0 : Vec Ideal S2048x512 .f32) (acc : Vec Ideal S1x1 .f32) :
    k0_pay11 (F := Ideal) x0 acc (ix2 0 0)
      = acc (ix2 0 0) + ∑ r : Fin 2048, ∑ d : Fin 512, x0 (ix2 r d) * x0 (ix2 r d) := by
  unfold k0_pay11
  dsimp only
  rw [shapeCast_self, addf_apply, broadcast_apply]
  refine congrArg (acc (ix2 0 0) + ·) ?_
  unfold extractAt
  refine (shapeCast_eq _ _ _).trans ?_
  refine (total_apply _ _ _ _).trans ?_
  refine (Equiv.sum_comp (Shape.reshapeEquiv shapeCasts_S2048x512_S1x2048x512) (mulf (F := Ideal) (φ := .f32) x0 x0)).trans ?_
  rw [sum_idx2]
  rfl

theorem pay5_apply (j : S1000x512.Idx) : k0_pay5 (F := Ideal) j = 0 := by
  unfold k0_pay5
  rw [shapeCast_self, broadcast_apply]
  exact Ideal.ofBits_zero_f32

theorem pay6_apply (j : S1x1000.Idx) : k0_pay6 (F := Ideal) j = 0 := by
  unfold k0_pay6
  rw [shapeCast_self, broadcast_apply]
  exact Ideal.ofBits_zero_f32

theorem pay7_apply (j : S1x1.Idx) : k0_pay7 (F := Ideal) j = 0 := by
  unfold k0_pay7
  rw [shapeCast_self, broadcast_apply]
  exact Ideal.ofBits_zero_f32

theorem pay2_apply (v : Vec Ideal S1000x512 .f32) (c : Fin 1000) (d : Fin 512) :
    k0_pay2 (F := Ideal) v (ix3 0 c d) = v (ix2 c d) := by
  unfold k0_pay2
  exact shapeCast_ab_1ab_apply v _ 0 c d

theorem pay3_apply (v : Vec Ideal S1x1000 .f32) (c : Fin 1000) :
    k0_pay3 (F := Ideal) v (ix3 0 0 c) = v (ix2 0 c) := by
  unfold k0_pay3
  exact shapeCast_ab_1ab_apply v _ 0 0 c

theorem pay4_apply (v : Vec Ideal S1x1 .f32) :
    k0_pay4 (F := Ideal) v (ix3 0 0 0) = v (ix2 0 0) := by
  unfold k0_pay4
  exact shapeCast_ab_1ab_apply v _ 0 0 0

end Cert.KernelIdeal.Tile

end
-- ==== Proof.KSums.lean ====
/-
  One step's update of the per-class feature sums, read at an entry.  The body multiplies the transposed one-hot
  matrix of the tile's labels with the tile's features, in two passes: the features themselves, and the features minus
  themselves (what is left of a split into a high and a low part once a change of format is the identity).  On finite
  features the second pass adds zero, and the first is, at class c and coordinate d, the sum of coordinate d over the
  tile's samples labelled c.
-/
import proofs.«402336_j7009386627592_3_alg».proof.Proof.KOneHot
import Idealize.ShloMosaic.Lib.Pipeline.Value

noncomputable section

namespace Cert.KernelIdeal.Tile

open Idealize.ShloMosaic Idealize.ShloMosaic.ValueIdx Cert.KernelIdeal Cert.KernelIdeal.Gen
open scoped BigOperators

/-! ## The product's operand indices: both operands are contracted along their sample axis -/

/-- The left operand's sample axis reads the contraction position. -/
theorem pay_sums_lhs_axis0 (j : S1000x512.Idx) (k : dot_S2048x1000_S2048x512_S1000x512_0_0_1_1_n_n.contr.Idx) :
    (dot_S2048x1000_S2048x512_S1000x512_0_0_1_1_n_n.lhsIdx j k 0 : ℕ) = k ⟨0, by decide⟩ :=
  DotDims.lhsIdx_val_of_single _ rfl j k

/-- The left operand's class axis reads the result's row. -/
theorem pay_sums_lhs_axis1 (j : S1000x512.Idx) (k : dot_S2048x1000_S2048x512_S1000x512_0_0_1_1_n_n.contr.Idx) :
    (dot_S2048x1000_S2048x512_S1000x512_0_0_1_1_n_n.lhsIdx j k 1 : ℕ) = j 0 := by
  simp [DotDims.lhsIdx, dot_S2048x1000_S2048x512_S1000x512_0_0_1_1_n_n]; rfl

/-- The right operand's sample axis reads the contraction position. -/
theorem pay_sums_rhs_axis0 (j : S1000x512.Idx) (k : dot_S2048x1000_S2048x512_S1000x512_0_0_1_1_n_n.contr.Idx) :
    (dot_S2048x1000_S2048x512_S1000x512_0_0_1_1_n_n.rhsIdx j k 0 : ℕ) = k ⟨0, by decide⟩ :=
  DotDims.rhsIdx_val_of_single _ rfl j k

/-- The right operand's feature axis reads the result's column. -/
theorem pay_sums_rhs_axis1 (j : S1000x512.Idx) (k : dot_S2048x1000_S2048x512_S1000x512_0_0_1_1_n_n.contr.Idx) :
    (dot_S2048x1000_S2048x512_S1000x512_0_0_1_1_n_n.rhsIdx j k 1 : ℕ) = j 1 := by
  simp [DotDims.rhsIdx, dot_S2048x1000_S2048x512_S1000x512_0_0_1_1_n_n]; rfl

/-- The product into the zero accumulator, at class c and coordinate d: the sum over the samples of the left
    operand's entry (sample, c) times the right operand's entry (sample, d). -/
theorem pay_sums_matmul (A : FVec Ideal S2048x1000 .bf16) (B : FVec Ideal S2048x512 .bf16) (c : Fin 1000) (d : Fin 512) :
    matmul dot_S2048x1000_S2048x512_S1000x512_0_0_1_1_n_n none A B (constant (F := Ideal) S1000x512 .f32 0x00000000#32) (ix2 c d)
      = ∑ r : Fin 2048, A (ix2 r c) * B (ix2 r d) := by
  show FloatOps.matmul _ none A B _ (ix2 c d) = _
  rw [Ideal.matmul_constant_zero_apply,
    ← Equiv.sum_comp (contrEquiv1 dot_S2048x1000_S2048x512_S1000x512_0_0_1_1_n_n 2048 rfl rfl).symm]
  refine Finset.sum_congr rfl fun r _ => ?_
  have hk := contrEquiv1_symm_val dot_S2048x1000_S2048x512_S1000x512_0_0_1_1_n_n 2048 rfl rfl r
  have hl : dot_S2048x1000_S2048x512_S1000x512_0_0_1_1_n_n.lhsIdx (ix2 c d)
      ((contrEquiv1 dot_S2048x1000_S2048x512_S1000x512_0_0_1_1_n_n 2048 rfl rfl).symm r) = ix2 r c := by
    funext ax; apply Fin.ext
    match ax with
    | ⟨0, _⟩ => exact (pay_sums_lhs_axis0 _ _).trans hk
    | ⟨1, _⟩ => exact pay_sums_lhs_axis1 _ _
  have hr : dot_S2048x1000_S2048x512_S1000x512_0_0_1_1_n_n.rhsIdx (ix2 c d)
      ((contrEquiv1 dot_S2048x1000_S2048x512_S1000x512_0_0_1_1_n_n 2048 rfl rfl).symm r) = ix2 r d := by
    funext ax; apply Fin.ext
    match ax with
    | ⟨0, _⟩ => exact (pay_sums_rhs_axis0 _ _).trans hk
    | ⟨1, _⟩ => exact pay_sums_rhs_axis1 _ _
  rw [hl, hr]

/-! ## The step's update at an entry -/

theorem pay_sums (x0 : Vec Ideal S2048x512 .f32) (x1 : Vec Ideal S2048x1 .i32) (acc : Vec Ideal S1000x512 .f32)
    (hfin : ∀ j, ∃ v : ℝ, x0 j = (v : EReal)) (hL : ∀ r : Fin 2048, (x1 (ix2 r 0)).toNat < 1000)
    (c : Fin 1000) (d : Fin 512) :
    k0_pay1 (F := Ideal) x0 (k0_pay9 x1) (k0_pay12 x0) (k0_pay13 x0) acc (ix2 c d)
      = acc (ix2 c d) + ∑ r : Fin 2048, if (x1 (ix2 r 0)).toNat = c.val then x0 (ix2 r d) else 0 := by
  unfold k0_pay1 k0_pay9 k0_pay12 k0_pay13
  rw [shapeCast_self]
  rw [addf_apply, addf_apply, pay_sums_matmul, pay_sums_matmul]
  simp only [truncf_apply, subf_apply, onehot_apply x1 hL]
  have h2 : ∑ r : Fin 2048, (if (x1 (ix2 r 0)).toNat = c.val then (1 : EReal) else 0) * (x0 (ix2 r d) - x0 (ix2 r d)) = 0 := by
    refine Finset.sum_eq_zero fun r _ => ?_
    obtain ⟨v, hv⟩ := hfin (ix2 r d)
    rw [hv, ← EReal.coe_sub, sub_self, EReal.coe_zero, mul_zero]
  rw [h2, add_zero]
  refine congrArg (acc (ix2 c d) + ·) (Finset.sum_congr rfl fun r _ => ?_)
  rw [ite_mul, one_mul, zero_mul]

end Cert.KernelIdeal.Tile

end
-- ==== Proof.SpecAdd.lean ====
/-
  The three sums over a range of samples split over adjacent ranges: the sum over [lo, lo + a + b) is the sum over
  [lo, lo + a) plus the sum over [lo + a, lo + a + b).
-/
import proofs.«402336_j7009386627592_3_alg».proof.Proof.Spec

noncomputable section

namespace CenterLoss

open Idealize.ShloMosaic Idealize.ShloMosaic.ValueIdx
open scoped BigOperators

theorem segOn_add (X : SX.Idx → EReal) (Lb : SLb.Idx → BitVec 32) (lo a b c d : ℕ) :
    segOn X Lb lo (a + b) c d = segOn X Lb lo a c d + segOn X Lb (lo + a) b c d := by
  unfold segOn
  rw [Finset.sum_range_add]
  simp only [Nat.add_assoc]

theorem cntOn_add (Lb : SLb.Idx → BitVec 32) (lo a b c : ℕ) :
    cntOn Lb lo (a + b) c = cntOn Lb lo a c + cntOn Lb (lo + a) b c := by
  unfold cntOn
  rw [Finset.sum_range_add]
  simp only [Nat.add_assoc]

theorem ssqOn_add (X : SX.Idx → EReal) (lo a b : ℕ) :
    ssqOn X lo (a + b) = ssqOn X lo a + ssqOn X (lo + a) b := by
  unfold ssqOn
  rw [Finset.sum_range_add]
  simp only [Nat.add_assoc]

theorem segOn_zero (X : SX.Idx → EReal) (Lb : SLb.Idx → BitVec 32) (lo c d : ℕ) : segOn X Lb lo 0 c d = 0 := by
  unfold segOn; simp

theorem cntOn_zero (Lb : SLb.Idx → BitVec 32) (lo c : ℕ) : cntOn Lb lo 0 c = 0 := by
  unfold cntOn; simp

theorem ssqOn_zero (X : SX.Idx → EReal) (lo : ℕ) : ssqOn X lo 0 = 0 := by
  unfold ssqOn; simp

end CenterLoss

end
-- ==== Proof.KInv.lean ====
/-
  The three accumulators after each grid point, in closed form.  Point n belongs to core n / 16 and is its step
  n % 16; the core's first step resets the accumulators before adding its tile, every other step adds its tile to what
  the step before left.  So after point n the accumulators hold the three sums over the samples
  [32768 (n / 16), 32768 (n / 16) + 2048 (n % 16 + 1)): by induction on the point, splitting the range at the last tile.
-/
import proofs.«402336_j7009386627592_3_alg».proof.Proof.Gen.KernelIdeal.Frame
import proofs.«402336_j7009386627592_3_alg».proof.Proof.KPieces
import proofs.«402336_j7009386627592_3_alg».proof.Proof.KCnt
import proofs.«402336_j7009386627592_3_alg».proof.Proof.KSums
import proofs.«402336_j7009386627592_3_alg».proof.Proof.KBlocks
import proofs.«402336_j7009386627592_3_alg».proof.Proof.SpecAdd

set_option maxRecDepth 16384

noncomputable section

namespace Cert.KernelIdeal.Inv

open Idealize.ShloMosaic Idealize.ShloMosaic.TcCoe Idealize.ShloMosaic.ValueIdx Idealize.SL.Sem Cert.KernelIdeal Cert.KernelIdeal.Gen
open Cert.KernelIdeal.Blocks Cert.KernelIdeal.Tile CenterLoss
open scoped BigOperators

variable (m : (ℓ : Loc nD τ sig) → Buf (Elt Ideal) ℓ)

/-! ## Arithmetic of points, cores and steps -/

theorem ar_first_lo (n : ℕ) (h0 : n % 16 = 0) : n / 16 * 32768 = n * 2048 := by omega
theorem ar_first_len (n : ℕ) (h0 : n % 16 = 0) : (n % 16 + 1) * 2048 = 2048 := by omega
theorem ar_next_lo (n : ℕ) (h0 : ¬n % 16 = 0) : n / 16 * 32768 = (n - 1) / 16 * 32768 := by omega
theorem ar_next_len (n : ℕ) (h0 : ¬n % 16 = 0) : (n % 16 + 1) * 2048 = ((n - 1) % 16 + 1) * 2048 + 2048 := by omega
theorem ar_next_end (n : ℕ) (h0 : ¬n % 16 = 0) : (n - 1) / 16 * 32768 + ((n - 1) % 16 + 1) * 2048 = n * 2048 := by omega
theorem ar_last_len (n : ℕ) (h1 : n % 16 = 15) : (n % 16 + 1) * 2048 = 32768 := by omega
theorem ar_pred_lt (n : ℕ) (h0 : ¬n % 16 = 0) : n - 1 < n := by omega

/-! ## The accumulators and the output blocks after point `n`, at their literal shapes -/

abbrev accS (c : Dev nD) (n : ℕ) (hn : n < cfg0.N) : Vec Ideal S1000x512 .f32 := (outsAt0 (F := Ideal) m c n hn).2.2.2.1
abbrev accC (c : Dev nD) (n : ℕ) (hn : n < cfg0.N) : Vec Ideal S1x1000 .f32 := (outsAt0 (F := Ideal) m c n hn).2.2.2.2.1
abbrev accQ (c : Dev nD) (n : ℕ) (hn : n < cfg0.N) : Vec Ideal S1x1 .f32 := (outsAt0 (F := Ideal) m c n hn).2.2.2.2.2
abbrev outS (c : Dev nD) (n : ℕ) (hn : n < cfg0.N) : Vec Ideal S1x1000x512 .f32 := (outsAt0 (F := Ideal) m c n hn).1
abbrev outC (c : Dev nD) (n : ℕ) (hn : n < cfg0.N) : Vec Ideal S1x1x1000 .f32 := (outsAt0 (F := Ideal) m c n hn).2.1
abbrev outQ (c : Dev nD) (n : ℕ) (hn : n < cfg0.N) : Vec Ideal S1x1x1 .f32 := (outsAt0 (F := Ideal) m c n hn).2.2.1

/-- One step's update of the feature sums over an accumulator `a`, at point `t`'s blocks. -/
abbrev updS (c : Dev nD) (t : Fin cfg0.N) (a : Vec Ideal S1000x512 .f32) : Vec Ideal S1000x512 .f32 :=
  k0_pay1 (F := Ideal) (xblk m c t) (k0_pay9 (lblk m c t)) (k0_pay12 (xblk m c t)) (k0_pay13 (xblk m c t)) a

/-! ## The recurrence -/

theorem first (c : Dev nD) (t : Fin cfg0.N) (h0 : t.val % 16 = 0) :
    accS m c t.val t.isLt = updS m c t (k0_pay5 (F := Ideal))
    ∧ accC m c t.val t.isLt = k0_pay10 (F := Ideal) (lblk m c t) (k0_pay6 (F := Ideal))
    ∧ accQ m c t.val t.isLt = k0_pay11 (F := Ideal) (xblk m c t) (k0_pay7 (F := Ideal)) := by
  have h1 : ¬t.val % 16 = 15 := by omega
  refine ⟨?_, ?_, ?_⟩
  · show (outsAt0 (F := Ideal) m c t.val t.isLt).2.2.2.1 = _
    rw [outsAt0_A m c t h0 h1]
    dsimp only
    exact Pieces.sums_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)
  · show (outsAt0 (F := Ideal) m c t.val t.isLt).2.2.2.2.1 = _
    rw [outsAt0_A m c t h0 h1]
    dsimp only
    exact Pieces.cnt_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)
  · show (outsAt0 (F := Ideal) m c t.val t.isLt).2.2.2.2.2 = _
    rw [outsAt0_A m c t h0 h1]
    dsimp only
    exact Pieces.sq_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)

/-- The point before `t`. -/
abbrev pv (t : Fin cfg0.N) : t.val - 1 < cfg0.N := Nat.lt_of_le_of_lt (Nat.sub_le _ _) t.isLt

theorem next (c : Dev nD) (t : Fin cfg0.N) (h0 : ¬t.val % 16 = 0) :
    accS m c t.val t.isLt = updS m c t (accS m c (t.val - 1) (pv t))
    ∧ accC m c t.val t.isLt = k0_pay10 (F := Ideal) (lblk m c t) (accC m c (t.val - 1) (pv t))
    ∧ accQ m c t.val t.isLt = k0_pay11 (F := Ideal) (xblk m c t) (accQ m c (t.val - 1) (pv t)) := by
  refine ⟨?_, ?_, ?_⟩
  · show (outsAt0 (F := Ideal) m c t.val t.isLt).2.2.2.1 = _
    by_cases h1 : t.val % 16 = 15
    · rw [outsAt0_C m c t h0 h1]
      dsimp only
      exact Pieces.sums_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2.1 (outsAt0 (F := Ideal) m c (t.val - 1) (Nat.lt_of_le_of_lt (Nat.sub_le _ _) t.isLt)).2.2.2.2.2
    · rw [outsAt0_B m c t h0 h1]
      dsimp only
      exact Pieces.sums_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2.1 (outsAt0 (F := Ideal) m c (t.val - 1) (Nat.lt_of_le_of_lt (Nat.sub_le _ _) t.isLt)).2.2.2.2.2
  · show (outsAt0 (F := Ideal) m c t.val t.isLt).2.2.2.2.1 = _
    by_cases h1 : t.val % 16 = 15
    · rw [outsAt0_C m c t h0 h1]
      dsimp only
      exact Pieces.cnt_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2.1 (outsAt0 (F := Ideal) m c (t.val - 1) (Nat.lt_of_le_of_lt (Nat.sub_le _ _) t.isLt)).2.2.2.2.2
    · rw [outsAt0_B m c t h0 h1]
      dsimp only
      exact Pieces.cnt_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2.1 (outsAt0 (F := Ideal) m c (t.val - 1) (Nat.lt_of_le_of_lt (Nat.sub_le _ _) t.isLt)).2.2.2.2.2
  · show (outsAt0 (F := Ideal) m c t.val t.isLt).2.2.2.2.2 = _
    by_cases h1 : t.val % 16 = 15
    · rw [outsAt0_C m c t h0 h1]
      dsimp only
      exact Pieces.sq_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2.1 (outsAt0 (F := Ideal) m c (t.val - 1) (Nat.lt_of_le_of_lt (Nat.sub_le _ _) t.isLt)).2.2.2.2.2
    · rw [outsAt0_B m c t h0 h1]
      dsimp only
      exact Pieces.sq_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2.1 (outsAt0 (F := Ideal) m c (t.val - 1) (Nat.lt_of_le_of_lt (Nat.sub_le _ _) t.isLt)).2.2.2.2.2

/-- At a core's last step the three output blocks are the just-updated accumulators under one more unit axis. -/
theorem last (c : Dev nD) (t : Fin cfg0.N) (h1 : t.val % 16 = 15) :
    outS m c t.val t.isLt = k0_pay2 (F := Ideal) (accS m c t.val t.isLt)
    ∧ outC m c t.val t.isLt = k0_pay3 (F := Ideal) (accC m c t.val t.isLt)
    ∧ outQ m c t.val t.isLt = k0_pay4 (F := Ideal) (accQ m c t.val t.isLt) := by
  have h0 : ¬t.val % 16 = 0 := by omega
  obtain ⟨eS, eC, eQ⟩ := next m c t h0
  refine ⟨?_, ?_, ?_⟩
  · rw [eS]
    show (outsAt0 (F := Ideal) m c t.val t.isLt).1 = _
    rw [outsAt0_C m c t h0 h1]
    dsimp only
    exact Pieces.outSums_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2.1 (outsAt0 (F := Ideal) m c (t.val - 1) (Nat.lt_of_le_of_lt (Nat.sub_le _ _) t.isLt)).2.2.2.2.2
  · rw [eC]
    show (outsAt0 (F := Ideal) m c t.val t.isLt).2.1 = _
    rw [outsAt0_C m c t h0 h1]
    dsimp only
    exact Pieces.outCnt_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2.1 (outsAt0 (F := Ideal) m c (t.val - 1) (Nat.lt_of_le_of_lt (Nat.sub_le _ _) t.isLt)).2.2.2.2.2
  · rw [eQ]
    show (outsAt0 (F := Ideal) m c t.val t.isLt).2.2.1 = _
    rw [outsAt0_C m c t h0 h1]
    dsimp only
    exact Pieces.outSq_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 (F := Ideal) m c (t.val - 1) (Nat.lt_of_le_of_lt (Nat.sub_le _ _) t.isLt)).2.2.2.1 (outsAt0 (F := Ideal) m c (t.val - 1) (Nat.lt_of_le_of_lt (Nat.sub_le _ _) t.isLt)).2.2.2.2.1 (outsAt0 (F := Ideal) m c (t.val - 1) (Nat.lt_of_le_of_lt (Nat.sub_le _ _) t.isLt)).2.2.2.2.2

/-! ## The blocks' entries: finite features, labels that name classes; a tile's sums -/

theorem feat_real {X : SX.Idx → EReal} (hX : CenterLoss.Finite X) (k d : ℕ) : ∃ v : ℝ, feat X k d = (v : EReal) := by
  unfold feat
  split
  · exact hX _
  · exact ⟨0, rfl⟩

theorem lab_lt {Lb : SLb.Idx → BitVec 32} (hL : InRange Lb) (k : ℕ) : lab Lb k < 1000 := by
  unfold lab
  split
  · exact hL _
  · decide

theorem xblk_fin (c : Dev nD) (t : Fin cfg0.N) (hX : CenterLoss.Finite (argX m c)) :
    ∀ j, ∃ v : ℝ, xblk m c t j = (v : EReal) := fun j => by
  obtain ⟨p, q, rfl⟩ : ∃ (p : Fin 2048) (q : Fin 512), j = ix2 p q := ⟨j 0, j 1, eq_ix2 j⟩
  rw [xblk_apply]
  exact feat_real hX _ _

theorem lblk_lt (c : Dev nD) (t : Fin cfg0.N) (hL : InRange (argL m c)) :
    ∀ r : Fin 2048, (lblk m c t (ix2 r 0)).toNat < 1000 := fun r => by
  rw [lblk_apply]
  exact lab_lt hL _

/-- The tile's feature sum for class `k` at coordinate `d` is the sum over the tile's range of samples. -/
theorem tileS (c : Dev nD) (t : Fin cfg0.N) (k : Fin 1000) (d : Fin 512) :
    (∑ r : Fin 2048, if (lblk m c t (ix2 r 0)).toNat = k.val then xblk m c t (ix2 r d) else 0)
      = segOn (argX m c) (argL m c) (t.val * 2048) 2048 k.val d.val := by
  unfold segOn
  rw [Finset.sum_range (fun r => if lab (argL m c) (t.val * 2048 + r) = k.val then feat (argX m c) (t.val * 2048 + r) d.val else 0)]
  exact Finset.sum_congr rfl fun r _ => by rw [lblk_apply, xblk_apply]

theorem tileC (c : Dev nD) (t : Fin cfg0.N) (k : Fin 1000) :
    (∑ r : Fin 2048, if (lblk m c t (ix2 r 0)).toNat = k.val then (1 : EReal) else 0)
      = cntOn (argL m c) (t.val * 2048) 2048 k.val := by
  unfold cntOn
  rw [Finset.sum_range (fun r => if lab (argL m c) (t.val * 2048 + r) = k.val then (1 : EReal) else 0)]
  exact Finset.sum_congr rfl fun r _ => by rw [lblk_apply]

theorem tileQ (c : Dev nD) (t : Fin cfg0.N) :
    (∑ r : Fin 2048, ∑ d : Fin 512, xblk m c t (ix2 r d) * xblk m c t (ix2 r d)) = ssqOn (argX m c) (t.val * 2048) 2048 := by
  unfold ssqOn
  rw [Finset.sum_range (fun r => ∑ d ∈ Finset.range 512, feat (argX m c) (t.val * 2048 + r) d * feat (argX m c) (t.val * 2048 + r) d)]
  refine Finset.sum_congr rfl fun r _ => ?_
  rw [Finset.sum_range (fun d => feat (argX m c) (t.val * 2048 + r.val) d * feat (argX m c) (t.val * 2048 + r.val) d)]
  exact Finset.sum_congr rfl fun d _ => by rw [xblk_apply]

/-! ## The closed form -/

/-- After point `n` the accumulators hold the three sums over the core's samples up to and including tile `n`. -/
def Closed (c : Dev nD) (n : ℕ) (hn : n < cfg0.N) : Prop :=
  (∀ (k : Fin 1000) (d : Fin 512), accS m c n hn (ix2 k d)
      = segOn (argX m c) (argL m c) (n / 16 * 32768) ((n % 16 + 1) * 2048) k.val d.val)
  ∧ (∀ k : Fin 1000, accC m c n hn (ix2 0 k) = cntOn (argL m c) (n / 16 * 32768) ((n % 16 + 1) * 2048) k.val)
  ∧ accQ m c n hn (ix2 0 0) = ssqOn (argX m c) (n / 16 * 32768) ((n % 16 + 1) * 2048)

theorem closed_step (c : Dev nD) (hX : CenterLoss.Finite (argX m c)) (hL : InRange (argL m c)) (t : Fin cfg0.N)
    (IH : ¬t.val % 16 = 0 → Closed m c (t.val - 1) (pv t)) : Closed m c t.val t.isLt := by
  by_cases h0 : t.val % 16 = 0
  · have e1 : t.val / 16 * 32768 = t.val * 2048 := ar_first_lo t.val h0
    have e2 : (t.val % 16 + 1) * 2048 = 2048 := ar_first_len t.val h0
    obtain ⟨eS, eC, eQ⟩ := first m c t h0
    refine ⟨fun k d => ?_, fun k => ?_, ?_⟩
    · rw [eS, e1, e2]
      refine (pay_sums (xblk m c t) (lblk m c t) (k0_pay5 (F := Ideal)) (xblk_fin m c t hX) (lblk_lt m c t hL) k d).trans ?_
      rw [pay5_apply, zero_add, tileS]
    · rw [eC, e1, e2]
      refine (pay_cnt (lblk m c t) (k0_pay6 (F := Ideal)) (lblk_lt m c t hL) k).trans ?_
      rw [pay6_apply, zero_add, tileC]
    · rw [eQ, e1, e2]
      refine (pay_sq (xblk m c t) (k0_pay7 (F := Ideal))).trans ?_
      rw [pay7_apply, zero_add, tileQ]
  · have e1 : t.val / 16 * 32768 = (t.val - 1) / 16 * 32768 := ar_next_lo t.val h0
    have e2 : (t.val % 16 + 1) * 2048 = ((t.val - 1) % 16 + 1) * 2048 + 2048 := ar_next_len t.val h0
    have e3 : (t.val - 1) / 16 * 32768 + ((t.val - 1) % 16 + 1) * 2048 = t.val * 2048 := ar_next_end t.val h0
    obtain ⟨eS, eC, eQ⟩ := next m c t h0
    obtain ⟨iS, iC, iQ⟩ := IH h0
    refine ⟨fun k d => ?_, fun k => ?_, ?_⟩
    · rw [eS, e1, e2, segOn_add, e3]
      refine (pay_sums (xblk m c t) (lblk m c t) (accS m c (t.val - 1) (pv t)) (xblk_fin m c t hX) (lblk_lt m c t hL) k d).trans ?_
      rw [iS k d, tileS]
    · rw [eC, e1, e2, cntOn_add, e3]
      refine (pay_cnt (lblk m c t) (accC m c (t.val - 1) (pv t)) (lblk_lt m c t hL) k).trans ?_
      rw [iC k, tileC]
    · rw [eQ, e1, e2, ssqOn_add, e3]
      refine (pay_sq (xblk m c t) (accQ m c (t.val - 1) (pv t))).trans ?_
      rw [iQ, tileQ]

theorem closed (c : Dev nD) (hX : CenterLoss.Finite (argX m c)) (hL : InRange (argL m c)) :
    ∀ (n : ℕ) (hn : n < cfg0.N), Closed m c n hn := by
  intro n
  induction n using Nat.strong_induction_on with
  | _ n ih =>
    intro hn
    exact closed_step m c hX hL ⟨n, hn⟩ (fun h0 => ih (n - 1) (ar_pred_lt n h0) _)

/-- At a core's last step the output blocks hold the three sums over the core's whole half of the samples. -/
theorem outs_closed (c : Dev nD) (hX : CenterLoss.Finite (argX m c)) (hL : InRange (argL m c)) (t : Fin cfg0.N)
    (h1 : t.val % 16 = 15) :
    (∀ (k : Fin 1000) (d : Fin 512), outS m c t.val t.isLt (ix3 0 k d)
        = segOn (argX m c) (argL m c) (t.val / 16 * 32768) 32768 k.val d.val)
    ∧ (∀ k : Fin 1000, outC m c t.val t.isLt (ix3 0 0 k) = cntOn (argL m c) (t.val / 16 * 32768) 32768 k.val)
    ∧ outQ m c t.val t.isLt (ix3 0 0 0) = ssqOn (argX m c) (t.val / 16 * 32768) 32768 := by
  have e : (t.val % 16 + 1) * 2048 = 32768 := ar_last_len t.val h1
  obtain ⟨oS, oC, oQ⟩ := last m c t h1
  obtain ⟨iS, iC, iQ⟩ := closed m c hX hL t.val t.isLt
  refine ⟨fun k d => ?_, fun k => ?_, ?_⟩
  · rw [oS, pay2_apply, iS k d, e]
  · rw [oC, pay3_apply, iC k, e]
  · rw [oQ, pay4_apply, iQ, e]

end Cert.KernelIdeal.Inv

end
-- ==== Proof.KFinal.lean ====
/-
  The three arrays the grid leaves.  Output windows 2, 3, 4 are written back only at a core's last step (points 15
  and 31), core h's block being block h along the leading axis; what is written back there is the core's three sums
  over its whole half of the samples.  The two blocks cover each array, so each array ends as the specification's
  per-core sums.
-/
import proofs.«402336_j7009386627592_3_alg».proof.Proof.KInv
import Idealize.ShloMosaic.Lib.Pipeline.Value

set_option maxRecDepth 16384

noncomputable section

namespace Cert.KernelIdeal.Final

open Idealize.ShloMosaic Idealize.ShloMosaic.TcCoe Idealize.ShloMosaic.ValueIdx Idealize.SL.Sem Cert.KernelIdeal Cert.KernelIdeal.Gen
open Idealize.ShloMosaic.Pipeline (Dat)
open Cert.KernelIdeal.Blocks Cert.KernelIdeal.Inv CenterLoss

variable (m : (ℓ : Loc nD τ sig) → Buf (Elt Ideal) ℓ)

/-- The grid has 32 points. -/
private theorem point_lt (t : Fin cfg0.N) : t.val < 32 := by
  have h := t.isLt
  have hN : cfg0.N = 32 := N_0
  omega

/-- The three output windows sit at block `core` (the point's number over 16) on the leading axis, block 0 on the others. -/
private theorem index_facts : ∀ t : Fin cfg0.N,
    win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = 0 ∧ win0_3.index t (2 : Fin 3) = 0
    ∧ win0_4.index t (0 : Fin 3) = t.val / 16 ∧ win0_4.index t (1 : Fin 3) = 0 ∧ win0_4.index t (2 : Fin 3) = 0 :=
  (by decide +kernel : ∀ t : Fin grid0.N, _)

/-- The last point of core `h`. -/
private theorem last_point (h : ℕ) (hh : h < 2) : ∃ t : Fin cfg0.N, t.val = 16 * h + 15 :=
  ⟨⟨16 * h + 15, by have hN : cfg0.N = 32 := N_0; omega⟩, rfl⟩

/-! ## The per-class feature sums -/

/-- A block of window 2 read off an array is the array at the block's embedded index. -/
private theorem read0_apply (G : SO0.Idx → EReal) (t : Fin cfg0.N) (j : S1x1000x512.Idx) :
    ((cfg0.win 2).blk t).view.read (Elt Ideal) G j = G (((cfg0.win 2).blk t).view.emb j) := rfl

/-- What a core's last point writes back is its block of the specification's array. -/
private theorem flushed0_eq (c : Dev nD) (hX : CenterLoss.Finite (argX m c)) (hL : InRange (argL m c)) (t : Fin cfg0.N)
    (hf : (cfg0.win 2).flush t = true) :
    (dats (F := Ideal) m 0 c).flushed 2 t
      = ((cfg0.win 2).blk t).view.read (Elt Ideal) (CenterLoss.out0 (argX m c) (argL m c)) := by
  have h1 : t.val % 16 = 15 := (flush0_2 t).mp hf
  have ht := point_lt t
  obtain ⟨hS, -, -⟩ := outs_closed m c hX hL t h1
  obtain ⟨e0, e1, e2, -⟩ := index_facts t
  show (cfg0.win 2).cut (grid0.coords t) ((dats m 0 c).after 2 t) = _
  rw [after0_2]
  funext (j : S1x1000x512.Idx)
  obtain ⟨a, k, d, rfl⟩ : ∃ (a : Fin 1) (k : Fin 1000) (d : Fin 512), j = ix3 a k d := ⟨j 0, j 1, j 2, eq_ix3 j⟩
  obtain rfl : a = 0 := Subsingleton.elim _ _
  show outS m c t.val t.isLt (ix3 0 k d) = _
  have hE : ((cfg0.win 2).blk t).view.emb (ix3 0 k d) = (ix3 ⟨t.val / 16, by omega⟩ k d : SO0.Idx) := by
    funext a; apply Fin.ext
    match a with
    | ⟨0, _⟩ => show win0_2.index t (0 : Fin 3) * 1 + 1 * 0 = t.val / 16; omega
    | ⟨1, _⟩ => show win0_2.index t (1 : Fin 3) * 1000 + 1 * k.val = k.val; omega
    | ⟨2, _⟩ => show win0_2.index t (2 : Fin 3) * 512 + 1 * d.val = d.val; omega
  refine (hS k d).trans ?_
  refine Eq.trans ?_ (read0_apply _ t _).symm
  refine Eq.trans ?_ (congrArg (CenterLoss.out0 (argX m c) (argL m c)) hE).symm
  unfold CenterLoss.out0
  rfl

/-- The two cores' last points cover the array. -/
private theorem cover0 (i : SO0.Idx) :
    ∃ t : Fin cfg0.N, (cfg0.win 2).flush t = true ∧ i ∈ ((cfg0.win 2).blk t).view.set := by
  have h0 : (i 0).val < 2 := (i 0).isLt
  have h1 : (i 1).val < 1000 := (i 1).isLt
  have h2 : (i 2).val < 512 := (i 2).isLt
  obtain ⟨t, ht⟩ := last_point (i 0).val h0
  obtain ⟨e0, e1, e2, -⟩ := index_facts t
  refine ⟨t, (flush0_2 t).mpr (by omega), ?_⟩
  show i ∈ ((View.whole main_v1_0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1000 ≤ (i 1).val ∧ (i 1).val < win0_2.index t (1 : Fin 3) * 1000 + 1000; omega
  | ⟨2, _⟩ => show win0_2.index t (2 : Fin 3) * 512 ≤ (i 2).val ∧ (i 2).val < win0_2.index t (2 : Fin 3) * 512 + 512; omega

theorem final0 (c : Dev nD) (hX : CenterLoss.Finite (argX m c)) (hL : InRange (argL m c)) :
    ((dats (F := Ideal) m 0 c).arrAt 2 cfg0.N : CenterLoss.SO0.Idx → EReal) = CenterLoss.out0 (argX m c) (argL m c) := by
  exact (dats (F := Ideal) m 0 c).arrAt_eq_of_cover 2 (CenterLoss.out0 (argX m c) (argL m c))
    (fun t hf => flushed0_eq m c hX hL t hf) cover0

/-! ## The per-class counts -/

/-- A block of window 3 read off an array is the array at the block's embedded index. -/
private theorem read1_apply (G : SO1.Idx → EReal) (t : Fin cfg0.N) (j : S1x1x1000.Idx) :
    ((cfg0.win 3).blk t).view.read (Elt Ideal) G j = G (((cfg0.win 3).blk t).view.emb j) := rfl

/-- What a core's last point writes back is its block of the specification's array. -/
private theorem flushed1_eq (c : Dev nD) (hX : CenterLoss.Finite (argX m c)) (hL : InRange (argL m c)) (t : Fin cfg0.N)
    (hf : (cfg0.win 3).flush t = true) :
    (dats (F := Ideal) m 0 c).flushed 3 t
      = ((cfg0.win 3).blk t).view.read (Elt Ideal) (CenterLoss.out1 (argL m c)) := by
  have h1 : t.val % 16 = 15 := (flush0_3 t).mp hf
  have ht := point_lt t
  obtain ⟨-, hC, -⟩ := outs_closed m c hX hL t h1
  obtain ⟨-, -, -, e0, e1, e2, -⟩ := index_facts t
  show (cfg0.win 3).cut (grid0.coords t) ((dats m 0 c).after 3 t) = _
  rw [after0_3]
  funext (j : S1x1x1000.Idx)
  obtain ⟨a, b, k, rfl⟩ : ∃ (a : Fin 1) (b : Fin 1) (k : Fin 1000), j = ix3 a b k := ⟨j 0, j 1, j 2, eq_ix3 j⟩
  obtain rfl : a = 0 := Subsingleton.elim _ _
  obtain rfl : b = 0 := Subsingleton.elim _ _
  show outC m c t.val t.isLt (ix3 0 0 k) = _
  have hE : ((cfg0.win 3).blk t).view.emb (ix3 0 0 k) = (ix3 ⟨t.val / 16, by omega⟩ 0 k : SO1.Idx) := by
    funext a; apply Fin.ext
    match a with
    | ⟨0, _⟩ => show win0_3.index t (0 : Fin 3) * 1 + 1 * 0 = t.val / 16; omega
    | ⟨1, _⟩ => show win0_3.index t (1 : Fin 3) * 1 + 1 * 0 = 0; omega
    | ⟨2, _⟩ => show win0_3.index t (2 : Fin 3) * 1000 + 1 * k.val = k.val; omega
  refine (hC k).trans ?_
  refine Eq.trans ?_ (read1_apply _ t _).symm
  refine Eq.trans ?_ (congrArg (CenterLoss.out1 (argL m c)) hE).symm
  unfold CenterLoss.out1
  rfl

/-- The two cores' last points cover the array. -/
private theorem cover1 (i : SO1.Idx) :
    ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 1000 := (i 2).isLt
  obtain ⟨t, ht⟩ := last_point (i 0).val h0
  obtain ⟨-, -, -, e0, e1, e2, -⟩ := index_facts t
  refine ⟨t, (flush0_3 t).mpr (by omega), ?_⟩
  show i ∈ ((View.whole main_v1_1).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 1000 ≤ (i 2).val ∧ (i 2).val < win0_3.index t (2 : Fin 3) * 1000 + 1000; omega

theorem final1 (c : Dev nD) (hX : CenterLoss.Finite (argX m c)) (hL : InRange (argL m c)) :
    ((dats (F := Ideal) m 0 c).arrAt 3 cfg0.N : CenterLoss.SO1.Idx → EReal) = CenterLoss.out1 (argL m c) := by
  exact (dats (F := Ideal) m 0 c).arrAt_eq_of_cover 3 (CenterLoss.out1 (argL m c))
    (fun t hf => flushed1_eq m c hX hL t hf) cover1

/-! ## The sum of squares -/

/-- A block of window 4 read off an array is the array at the block's embedded index. -/
private theorem read2_apply (G : SO2.Idx → EReal) (t : Fin cfg0.N) (j : S1x1x1.Idx) :
    ((cfg0.win 4).blk t).view.read (Elt Ideal) G j = G (((cfg0.win 4).blk t).view.emb j) := rfl

/-- What a core's last point writes back is its block of the specification's array. -/
private theorem flushed2_eq (c : Dev nD) (hX : CenterLoss.Finite (argX m c)) (hL : InRange (argL m c)) (t : Fin cfg0.N)
    (hf : (cfg0.win 4).flush t = true) :
    (dats (F := Ideal) m 0 c).flushed 4 t
      = ((cfg0.win 4).blk t).view.read (Elt Ideal) (CenterLoss.out2 (argX m c)) := by
  have h1 : t.val % 16 = 15 := (flush0_4 t).mp hf
  have ht := point_lt t
  obtain ⟨-, -, hQ⟩ := outs_closed m c hX hL t h1
  obtain ⟨-, -, -, -, -, -, e0, e1, e2⟩ := index_facts t
  show (cfg0.win 4).cut (grid0.coords t) ((dats m 0 c).after 4 t) = _
  rw [after0_4]
  funext (j : S1x1x1.Idx)
  obtain ⟨a, b, e, rfl⟩ : ∃ (a : Fin 1) (b : Fin 1) (e : Fin 1), j = ix3 a b e := ⟨j 0, j 1, j 2, eq_ix3 j⟩
  obtain rfl : a = 0 := Subsingleton.elim _ _
  obtain rfl : b = 0 := Subsingleton.elim _ _
  obtain rfl : e = 0 := Subsingleton.elim _ _
  show outQ m c t.val t.isLt (ix3 0 0 0) = _
  have hE : ((cfg0.win 4).blk t).view.emb (ix3 0 0 0) = (ix3 ⟨t.val / 16, by omega⟩ 0 0 : SO2.Idx) := by
    funext a; apply Fin.ext
    match a with
    | ⟨0, _⟩ => show win0_4.index t (0 : Fin 3) * 1 + 1 * 0 = t.val / 16; omega
    | ⟨1, _⟩ => show win0_4.index t (1 : Fin 3) * 1 + 1 * 0 = 0; omega
    | ⟨2, _⟩ => show win0_4.index t (2 : Fin 3) * 1 + 1 * 0 = 0; omega
  refine hQ.trans ?_
  refine Eq.trans ?_ (read2_apply _ t _).symm
  refine Eq.trans ?_ (congrArg (CenterLoss.out2 (argX m c)) hE).symm
  unfold CenterLoss.out2
  rfl

/-- The two cores' last points cover the array. -/
private theorem cover2 (i : SO2.Idx) :
    ∃ t : Fin cfg0.N, (cfg0.win 4).flush t = true ∧ i ∈ ((cfg0.win 4).blk t).view.set := by
  have h0 : (i 0).val < 2 := (i 0).isLt
  have h1 : (i 1).val < 1 := (i 1).isLt
  have h2 : (i 2).val < 1 := (i 2).isLt
  obtain ⟨t, ht⟩ := last_point (i 0).val h0
  obtain ⟨-, -, -, -, -, -, e0, e1, e2⟩ := index_facts t
  refine ⟨t, (flush0_4 t).mpr (by omega), ?_⟩
  show i ∈ ((View.whole main_v1_2).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 1 ≤ (i 2).val ∧ (i 2).val < win0_4.index t (2 : Fin 3) * 1 + 1; omega

theorem final2 (c : Dev nD) (hX : CenterLoss.Finite (argX m c)) (hL : InRange (argL m c)) :
    ((dats (F := Ideal) m 0 c).arrAt 4 cfg0.N : CenterLoss.SO2.Idx → EReal) = CenterLoss.out2 (argX m c) := by
  exact (dats (F := Ideal) m 0 c).arrAt_eq_of_cover 4 (CenterLoss.out2 (argX m c))
    (fun t hf => flushed2_eq m c hX hL t hf) cover2

end Cert.KernelIdeal.Final

end
-- ==== Proof.RRead.lean ====
/-
  The reference's two results as functions of the arguments: the gather reads each sample's own center (a label that
  names a class is neither wrapped nor clamped), the sum of squared differences is halved and averaged, and the two
  scatter-adds collect, per class, the differences center - feature and the number of samples.
-/
import proofs.«402336_j7009386627592_3_alg».proof.Proof.RefReadP
import proofs.«402336_j7009386627592_3_alg».proof.Proof.Spec
import proofs.«402336_j7009386627592_3_alg».proof.Proof.Consts

noncomputable section

namespace Cert.ReferenceIdeal.RefValue

open Idealize.ShloMosaic Idealize.ShloMosaic.TcCoe Idealize.ShloMosaic.ValueIdx Idealize.SL.Sem Cert.ReferenceIdeal Cert.ReferenceIdeal.Gen

/-- A word below 1000 is not negative as a signed integer. -/
private theorem toInt_of_lt (l : BitVec 32) (h : l.toNat < 1000) : l.toInt = (l.toNat : Int) := by
  rw [BitVec.toInt_eq_toNat_of_lt]; omega

private theorem sel_label (l : BitVec 32) (h : l.toNat < 1000) :
    Scalar.select (IntOp.cmpi .slt l 0#32) (IntOp.addi l 1000#32) l = l := by
  have hs : l.slt 0#32 = false := by
    have hn : ¬ ((l.toNat : Int) < 0) := by omega
    simp only [BitVec.slt, toInt_of_lt l h, BitVec.toInt_zero, decide_eq_false_iff_not]
    exact hn
  have : IntOp.cmpi .slt l 0#32 = 0#1 := by
    show BitVec.ofBool (l.slt 0#32) = 0#1
    rw [hs]; rfl
  rw [this, select_zero]

private theorem lab_lt (Lb : CenterLoss.SLb.Idx → BitVec 32) (hL : CenterLoss.InRange Lb) (b : Fin 65536) :
    CenterLoss.lab Lb b.val < 1000 := by
  unfold CenterLoss.lab
  rw [dif_pos b.isLt]
  exact hL b

private theorem lab_eq (Lb : CenterLoss.SLb.Idx → BitVec 32) (b : Fin 65536) :
    CenterLoss.lab Lb b.val = (Lb (ix1 b)).toNat := by
  unfold CenterLoss.lab
  rw [dif_pos b.isLt]

/-- The index fed to the gather is the label itself. -/
private theorem v5_apply (Lb : CenterLoss.SLb.Idx → BitVec 32) (hL : CenterLoss.InRange Lb) (b : Fin 65536) (z : Fin 1) :
    Read.val_main_v5 (F := Ideal) Lb (ix2 b z) = Lb (ix1 b) := by
  rw [Read.val_main_v5_apply, Read.val_main_v4_apply, Read.val_main_v1_apply, Read.val_main_v3_apply,
    Read.val_main_v0_apply, Read.val_main_v2_apply, Read.val_main_c_apply, Read.val_main_c_0_apply]
  have e : Read.idx_main_v5 (ix2 b z) = ix1 b := by
    funext a; match a with | ⟨0, _⟩ => rfl
  rw [e]
  exact sel_label _ (hL b)

/-- The gather reads each sample's own center: a label that names a class is neither wrapped nor clamped. -/
theorem gather_apply (Lb : CenterLoss.SLb.Idx → BitVec 32) (Cn : CenterLoss.SCn.Idx → EReal) (hL : CenterLoss.InRange Lb)
    (b : Fin 65536) (d : Fin 512) :
    Read.val_main_v6 (F := Ideal) Lb Cn (ix2 b d) = CenterLoss.cen Cn (CenterLoss.lab Lb b.val) d.val := by
  have hl := lab_lt Lb hL b
  unfold CenterLoss.cen
  rw [dif_pos ⟨hl, d.isLt⟩]
  unfold Read.val_main_v6 Host.gather
  congr 1
  funext a
  refine Fin.ext ?_
  match a with
  | ⟨0, _⟩ =>
    show (gather_S1000x512_S65536x1_S65536x512_1_0_n_n_0_1_1512).start (ix2 b d) _ 0
      + (gather_S1000x512_S65536x1_S65536x512_1_0_n_n_0_1_1512).batchCoord (ix2 b d) 0
      + (gather_S1000x512_S65536x1_S65536x512_1_0_n_n_0_1_1512).offCoord (ix2 b d) 0 = CenterLoss.lab Lb b.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S1000x512_S65536x1_S65536x512_1_0_n_n_0_1_1512).startIndexMap from List.mem_singleton.mpr rfl)]
    have hsi : (gather_S1000x512_S65536x1_S65536x512_1_0_n_n_0_1_1512).siIdx (ix2 b d)
        ⟨List.idxOf (0 : Fin 2) (gather_S1000x512_S65536x1_S65536x512_1_0_n_n_0_1_1512).startIndexMap,
          List.idxOf_lt_length_iff.2 (List.mem_singleton.mpr rfl)⟩ = ix2 b (0 : Fin 1) := by
      funext c; refine Fin.ext ?_
      match c with
      | ⟨0, _⟩ => rfl
      | ⟨1, _⟩ => rfl
    rw [hsi, v5_apply Lb hL b 0, toInt_of_lt _ (hL b), lab_eq]
    show min (Lb (ix1 b)).toNat (1000 - 1) = _
    have := hL b
    omega
  | ⟨1, _⟩ =>
    show (gather_S1000x512_S65536x1_S65536x512_1_0_n_n_0_1_1512).start (ix2 b d) _ 1
      + (gather_S1000x512_S65536x1_S65536x512_1_0_n_n_0_1_1512).batchCoord (ix2 b d) 1
      + (gather_S1000x512_S65536x1_S65536x512_1_0_n_n_0_1_1512).offCoord (ix2 b d) 1 = d.val
    rw [GatherDims.batchCoord_eq_zero _ _ _ List.not_mem_nil]
    unfold GatherDims.start
    rw [dif_neg (show (1 : Fin 2) ∉ (gather_S1000x512_S65536x1_S65536x512_1_0_n_n_0_1_1512).startIndexMap from by decide)]
    simp only [Nat.add_zero, Nat.zero_add]
    rfl

/-! ## The scatter-adds -/

/-- An update lands where its start plus its window coordinate is an index of the operand. -/
private theorem resultIdx?_some {s si u : Shape} (D : ScatterDims s si u) {w : Nat} (j : u.Idx) (idx : IVec si w) (f : s.Idx)
    (h : ∀ a, D.start j idx a + (D.window j a : Int) = ((f a).val : Int)) :
    D.resultIdx? j idx = some f := by
  unfold ScatterDims.resultIdx?
  rw [dif_pos (fun a => by rw [h a]; exact ⟨Int.natCast_nonneg _, by exact_mod_cast (f a).isLt⟩)]
  congr 1
  funext a
  refine Fin.ext ?_
  show (D.start j idx a + D.window j a).toNat = (f a).val
  rw [h a]; exact Int.toNat_natCast _

/-- A rank-1 index set is its one coordinate's range. -/
private def idxEquiv1 {n : Nat} : (⟨1, ![n]⟩ : Shape).Idx ≃ Fin n where
  toFun i := i 0
  invFun p := ix1 p
  left_inv i := (eq_ix1 i).symm
  right_inv _ := rfl

private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Where the count's update of sample `b` lands: at its label. -/
private theorem cnt_result (Lb : CenterLoss.SLb.Idx → BitVec 32) (hL : CenterLoss.InRange Lb) (b : Fin 65536) :
    (scatter_S1000_S65536x1_S65536_n_0_0_1).resultIdx? (ix1 b) (Read.val_main_v18 (F := Ideal) Lb)
      = some (ix1 ⟨CenterLoss.lab Lb b.val, lab_lt Lb hL b⟩) := by
  refine resultIdx?_some _ _ _ _ (fun a => ?_)
  match a with
  | ⟨0, _⟩ =>
    show (scatter_S1000_S65536x1_S65536_n_0_0_1).start (ix1 b) _ 0
      + ((scatter_S1000_S65536x1_S65536_n_0_0_1).window (ix1 b) 0 : Int) = (CenterLoss.lab Lb b.val : Int)
    have hw : (scatter_S1000_S65536x1_S65536_n_0_0_1).window (ix1 b) 0 = 0 := by
      unfold ScatterDims.window
      rw [dif_neg (by decide)]
    rw [hw]
    unfold ScatterDims.start
    rw [dif_pos (show (0 : Fin 1) ∈ (scatter_S1000_S65536x1_S65536_n_0_0_1).scatterDimsToOperandDims from List.mem_singleton.mpr rfl)]
    have hsi : (scatter_S1000_S65536x1_S65536_n_0_0_1).siIdx (ix1 b)
        ⟨List.idxOf (0 : Fin 1) (scatter_S1000_S65536x1_S65536_n_0_0_1).scatterDimsToOperandDims,
          List.idxOf_lt_length_iff.2 (List.mem_singleton.mpr rfl)⟩ = ix2 b (0 : Fin 1) := by
      funext c; refine Fin.ext ?_
      match c with
      | ⟨0, _⟩ => rfl
      | ⟨1, _⟩ => rfl
    rw [hsi, Read.val_main_v18_apply]
    have e : Read.idx_main_v18 (ix2 b (0 : Fin 1)) = ix1 b := by
      funext a; match a with | ⟨0, _⟩ => rfl
    rw [e, toInt_of_lt _ (hL b), lab_eq]
    simp

/-- The scatter-add of ones by label counts each class's samples. -/
theorem cntR_apply (Lb : CenterLoss.SLb.Idx → BitVec 32) (hL : CenterLoss.InRange Lb) (c : Fin 1000) :
    Read.val_main_v19 (F := Ideal) Lb (ix1 c) = CenterLoss.refCnt Lb c := by
  unfold Read.val_main_v19 Host.scatterAdd
  rw [Ideal.hostScatterAdd_def]
  unfold Ideal.hostScatterAdd
  have hzero : (FloatOps.ofBits .f32 0x00000000#32 : Ideal .f32) = (0 : EReal) := Ideal.ofBits_zero_f32
  rw [Read.val_main_v17_apply, Read.val_main_cst_5_apply, hzero, zero_add, Finset.sum_filter, sum_idx1]
  unfold CenterLoss.refCnt
  refine Finset.sum_congr rfl (fun b _ => ?_)
  rw [cnt_result Lb hL b, Read.val_main_v16_apply, Read.val_main_cst_4_apply]
  have hone : (FloatOps.ofBits .f32 0x3F800000#32 : Ideal .f32) = (1 : EReal) := CenterLoss.Consts.ofBits_one
  rw [hone]
  by_cases hb : CenterLoss.lab Lb b.val = c.val
  · rw [if_pos hb, if_pos]
    exact congrArg some (by funext a; match a with | ⟨0, _⟩ => exact Fin.ext hb)
  · rw [if_neg hb, if_neg]
    intro h
    exact hb (congrArg Fin.val (congrFun (Option.some.inj h) 0))

/-- Where the update of sample `b`, coordinate `d` lands: at the sample's label, same coordinate. -/
private theorem seg_result (Lb : CenterLoss.SLb.Idx → BitVec 32) (hL : CenterLoss.InRange Lb) (b : Fin 65536) (d : Fin 512) :
    (scatter_S1000x512_S65536x1_S65536x512_1_0_0_1).resultIdx? (ix2 b d) (Read.val_main_v14 (F := Ideal) Lb)
      = some (ix2 ⟨CenterLoss.lab Lb b.val, lab_lt Lb hL b⟩ d) := by
  refine resultIdx?_some _ _ _ _ (fun a => ?_)
  match a with
  | ⟨0, _⟩ =>
    show (scatter_S1000x512_S65536x1_S65536x512_1_0_0_1).start (ix2 b d) _ 0
      + ((scatter_S1000x512_S65536x1_S65536x512_1_0_0_1).window (ix2 b d) 0 : Int) = (CenterLoss.lab Lb b.val : Int)
    have hw : (scatter_S1000x512_S65536x1_S65536x512_1_0_0_1).window (ix2 b d) 0 = 0 := by
      unfold ScatterDims.window
      rw [dif_neg (by decide)]
    rw [hw]
    unfold ScatterDims.start
    rw [dif_pos (show (0 : Fin 2) ∈ (scatter_S1000x512_S65536x1_S65536x512_1_0_0_1).scatterDimsToOperandDims from List.mem_singleton.mpr rfl)]
    have hsi : (scatter_S1000x512_S65536x1_S65536x512_1_0_0_1).siIdx (ix2 b d)
        ⟨List.idxOf (0 : Fin 2) (scatter_S1000x512_S65536x1_S65536x512_1_0_0_1).scatterDimsToOperandDims,
          List.idxOf_lt_length_iff.2 (List.mem_singleton.mpr rfl)⟩ = ix2 b (0 : Fin 1) := by
      funext c; refine Fin.ext ?_
      match c with
      | ⟨0, _⟩ => rfl
      | ⟨1, _⟩ => rfl
    rw [hsi, Read.val_main_v14_apply]
    have e : Read.idx_main_v14 (ix2 b (0 : Fin 1)) = ix1 b := by
      funext a; match a with | ⟨0, _⟩ => rfl
    rw [e, toInt_of_lt _ (hL b), lab_eq]
    simp
  | ⟨1, _⟩ =>
    show (scatter_S1000x512_S65536x1_S65536x512_1_0_0_1).start (ix2 b d) _ 1
      + ((scatter_S1000x512_S65536x1_S65536x512_1_0_0_1).window (ix2 b d) 1 : Int) = (d.val : Int)
    have hw : (scatter_S1000x512_S65536x1_S65536x512_1_0_0_1).window (ix2 b d) 1 = d.val := by
      unfold ScatterDims.window
      rw [dif_pos (by decide)]
      rfl
    rw [hw]
    unfold ScatterDims.start
    rw [dif_neg (show (1 : Fin 2) ∉ (scatter_S1000x512_S65536x1_S65536x512_1_0_0_1).scatterDimsToOperandDims from by decide)]
    simp

/-- The scatter-add of the differences center - feature by label sums them over each class's samples. -/
theorem segR_apply (X : CenterLoss.SX.Idx → EReal) (Lb : CenterLoss.SLb.Idx → BitVec 32) (Cn : CenterLoss.SCn.Idx → EReal)
    (hL : CenterLoss.InRange Lb) (c : Fin 1000) (d : Fin 512) :
    Read.val_main_v15 (F := Ideal) X Lb Cn (ix2 c d) = CenterLoss.refSeg X Lb Cn c d := by
  unfold Read.val_main_v15 Host.scatterAdd
  rw [Ideal.hostScatterAdd_def]
  unfold Ideal.hostScatterAdd
  have hzero : (FloatOps.ofBits .f32 0x00000000#32 : Ideal .f32) = (0 : EReal) := Ideal.ofBits_zero_f32
  rw [Read.val_main_v13_apply, Read.val_main_cst_3_apply, hzero, zero_add, Finset.sum_filter, sum_idx2]
  unfold CenterLoss.refSeg
  refine Finset.sum_congr rfl (fun b _ => ?_)
  by_cases hb : CenterLoss.lab Lb b.val = c.val
  · rw [if_pos hb, Finset.sum_eq_single d]
    · rw [seg_result Lb hL b d, if_pos, Read.val_main_v12_apply, gather_apply Lb Cn hL b d]
      · rfl
      · exact congrArg some (by funext a; match a with | ⟨0, _⟩ => exact Fin.ext hb | ⟨1, _⟩ => rfl)
    · intro d' _ hd
      rw [seg_result Lb hL b d', if_neg]
      intro h
      exact hd (congrFun (Option.some.inj h) 1)
    · intro h; exact absurd (Finset.mem_univ d) h
  · rw [if_neg hb]
    refine Finset.sum_eq_zero (fun d' _ => ?_)
    rw [seg_result Lb hL b d', if_neg]
    intro h
    exact hb (congrArg Fin.val (congrFun (Option.some.inj h) 0))

/-! ## The two results -/

/-- The first result: the sum of squared differences to each sample's own center, halved and averaged. -/
theorem loss_eq (X : CenterLoss.SX.Idx → EReal) (Lb : CenterLoss.SLb.Idx → BitVec 32) (Cn : CenterLoss.SCn.Idx → EReal)
    (hL : CenterLoss.InRange Lb) :
    Read.val_main_v11 (F := Ideal) X Lb Cn = CenterLoss.lossArr (CenterLoss.refLoss X Lb Cn) := by
  funext i
  unfold CenterLoss.lossArr CenterLoss.refLoss
  show Ideal.div (Ideal.div (Read.val_main_v9 (F := Ideal) X Lb Cn i) (Ideal.ofBits .f32 0x40000000#32))
    (Ideal.ofBits .f32 0x47800000#32) = _
  rw [CenterLoss.Consts.ofBits_two, CenterLoss.Consts.ofBits_65536, Read.val_main_v9_apply, Read.val_main_cst_apply]
  have hzero : (FloatOps.ofBits .f32 0x00000000#32 : Ideal .f32) = (0 : EReal) := Ideal.ofBits_zero_f32
  rw [hzero, zero_add, sum_idx2]
  refine congrArg (fun s => Ideal.div (Ideal.div s 2) 65536) ?_
  refine Finset.sum_congr rfl (fun b _ => Finset.sum_congr rfl (fun d _ => ?_))
  rw [Read.val_main_v8_apply, Read.val_main_v7_apply, gather_apply Lb Cn hL b d]
  rfl

/-- The second result: each center less half the mean difference over its class, when the class has a sample. -/
theorem new_eq (X : CenterLoss.SX.Idx → EReal) (Lb : CenterLoss.SLb.Idx → BitVec 32) (Cn : CenterLoss.SCn.Idx → EReal)
    (hL : CenterLoss.InRange Lb) :
    Read.val_main_v31 (F := Ideal) X Lb Cn = CenterLoss.newArr (CenterLoss.refNew X Lb Cn) := by
  funext j
  obtain ⟨c, d, rfl⟩ : ∃ (c : Fin 1000) (d : Fin 512), j = ix2 c d := ⟨j 0, j 1, eq_ix2 j⟩
  rw [CenterLoss.newArr_ix2]
  unfold CenterLoss.refNew CenterLoss.upd
  have e1 : Read.idx_main_v25 (Read.idx_main_call0_v1 (ix2 c d)) = ix1 c := by
    funext a; match a with | ⟨0, _⟩ => rfl
  have e2 : Read.idx_main_v22 (Read.idx_main_v23 (ix2 c d)) = ix1 c := by
    funext a; match a with | ⟨0, _⟩ => rfl
  have hzero : (FloatOps.ofBits .f32 0x00000000#32 : Ideal .f32) = (0 : EReal) := Ideal.ofBits_zero_f32
  have hone : (FloatOps.ofBits .f32 0x3F800000#32 : Ideal .f32) = (1 : EReal) := CenterLoss.Consts.ofBits_one
  have hhalf : (FloatOps.ofBits .f32 0x3F000000#32 : Ideal .f32) = ((1 / 2 : ℝ) : EReal) := CenterLoss.Consts.ofBits_half
  simp only [Read.val_main_v31_apply, Read.val_main_v30_apply, Read.val_main_call0_v1_apply, Read.val_main_v27_apply,
    Read.val_main_v25_apply, Read.val_main_v26_apply, Read.val_main_cst_7_apply, Read.val_main_call0_v2_apply,
    Read.val_main_call0_v0_apply, Read.val_main_cst_9_apply, Read.val_main_v29_apply, Read.val_main_v24_apply,
    Read.val_main_v28_apply, Read.val_main_cst_8_apply, Read.val_main_v23_apply, Read.val_main_v22_apply,
    Read.val_main_v21_apply, Read.val_main_v20_apply, Read.val_main_cst_6_apply, e1, e2, cntR_apply Lb hL c,
    segR_apply X Lb Cn hL c d, hzero, hone, hhalf]
  show Cn (ix2 c d) - Scalar.select (Ideal.cmp .ogt (CenterLoss.refCnt Lb c) 0)
    (Ideal.div (CenterLoss.refSeg X Lb Cn c d) (max (CenterLoss.refCnt Lb c) 1) * ((1 / 2 : ℝ) : EReal)) 0 = _
  by_cases hn : 0 < CenterLoss.refCnt Lb c
  · have hc : Ideal.cmp .ogt (CenterLoss.refCnt Lb c) 0 = 1#1 := by simp [Ideal.cmp, hn]
    rw [if_pos hn, hc, select_one]
  · have hc : Ideal.cmp .ogt (CenterLoss.refCnt Lb c) 0 = 0#1 := by simp [Ideal.cmp, hn]
    rw [if_neg hn, hc, select_zero]

variable (m : (ℓ : Loc nD τ sig) → Buf (Elt Ideal) ℓ) (ρ : Dev nD → PrngReg)

abbrev argX (c : Dev nD) : CenterLoss.SX.Idx → EReal := m ((c.tc : Thread nD τ).loc main_arg0)
abbrev argL (c : Dev nD) : CenterLoss.SLb.Idx → BitVec 32 := m ((c.tc : Thread nD τ).loc main_arg1)
abbrev argC (c : Dev nD) : CenterLoss.SCn.Idx → EReal := m ((c.tc : Thread nD τ).loc main_arg2)

theorem run_values (hL : ∀ c : Dev nD, CenterLoss.InRange (argL m c)) :
    θ_run (defs (F := Ideal)) (onTc (τ := τ) (main (F := Ideal))) ⟨m, fun _ => 0, ρ⟩ (fun r => ∀ c : Dev nD,
      r.2.mem ((c.tc : Thread nD τ).loc main_v11)
          = CenterLoss.lossArr (CenterLoss.refLoss (argX m c) (argL m c) (argC m c))
      ∧ r.2.mem ((c.tc : Thread nD τ).loc main_v31)
          = CenterLoss.newArr (CenterLoss.refNew (argX m c) (argL m c) (argC m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c).1.trans ((Read.val_main_v11_eq (F := Ideal) (argX m c) (argL m c) (argC m c)).trans
          (loss_eq (argX m c) (argL m c) (argC m c) (hL c))),
        (h c).2.1.trans ((Read.val_main_v31_eq (F := Ideal) (argX m c) (argL m c) (argC m c)).trans
          (new_eq (argX m c) (argL m c) (argC m c) (hL c))),
        (h c).2.2⟩)
    (Value.run (F := Ideal) m ρ)

end Cert.ReferenceIdeal.RefValue

end
-- ==== Proof.BridgeSums.lean ====
/-
  The sums the two programs share.  The two cores' halves add up to the sums over all samples; the reference's
  count of a class is that class's count; and the reference's per-class sum of center - feature is the count times
  the center minus the per-class feature sum (finite features and centers: a sum of differences is the difference of
  the sums).
-/
import proofs.«402336_j7009386627592_3_alg».proof.Proof.SpecAdd
import Mathlib.Data.EReal.Basic
import Mathlib.Data.EReal.Operations
import Mathlib.Algebra.BigOperators.Fin
import Mathlib.Tactic.Ring
import Mathlib.Tactic.NormNum

noncomputable section

namespace CenterLoss

open Idealize.ShloMosaic Idealize.ShloMosaic.ValueIdx
open scoped BigOperators

theorem tSum_out0 (X : SX.Idx → EReal) (Lb : SLb.Idx → BitVec 32) (c : Fin 1000) (d : Fin 512) :
    tSum (out0 X Lb) c d = segOn X Lb 0 65536 c.val d.val := by
  show segOn X Lb (0 * 32768) 32768 c.val d.val + segOn X Lb (1 * 32768) 32768 c.val d.val
    = segOn X Lb 0 (32768 + 32768) c.val d.val
  rw [segOn_add, Nat.zero_mul, Nat.one_mul, Nat.zero_add]

theorem tCnt_out1 (Lb : SLb.Idx → BitVec 32) (c : Fin 1000) : tCnt (out1 Lb) c = cntOn Lb 0 65536 c.val := by
  show cntOn Lb (0 * 32768) 32768 c.val + cntOn Lb (1 * 32768) 32768 c.val = cntOn Lb 0 (32768 + 32768) c.val
  rw [cntOn_add, Nat.zero_mul, Nat.one_mul, Nat.zero_add]

theorem tSq_out2 (X : SX.Idx → EReal) : tSq (out2 X) = ssqOn X 0 65536 := by
  show ssqOn X (0 * 32768) 32768 + ssqOn X (1 * 32768) 32768 = ssqOn X 0 (32768 + 32768)
  rw [ssqOn_add, Nat.zero_mul, Nat.one_mul, Nat.zero_add]

theorem refCnt_eq (Lb : SLb.Idx → BitVec 32) (c : Fin 1000) : refCnt Lb c = cntOn Lb 0 65536 c.val := by
  unfold refCnt cntOn
  rw [Finset.sum_range]
  simp only [Nat.zero_add]

/-- The count over a single sample. -/
private theorem cntOn_one (Lb : SLb.Idx → BitVec 32) (lo c : ℕ) :
    cntOn Lb lo 1 c = if lab Lb lo = c then (1 : EReal) else 0 := by
  unfold cntOn
  rw [Finset.sum_range_one, Nat.add_zero]

/-- The feature sum over a single sample. -/
private theorem segOn_one (X : SX.Idx → EReal) (Lb : SLb.Idx → BitVec 32) (lo c d : ℕ) :
    segOn X Lb lo 1 c d = if lab Lb lo = c then feat X lo d else 0 := by
  unfold segOn
  rw [Finset.sum_range_one, Nat.add_zero]

/-- A feature read at natural-number coordinates is a real number when the array's entries are. -/
private theorem feat_real (X : SX.Idx → EReal) (hX : Finite X) (k d : ℕ) : ∃ v : ℝ, feat X k d = (v : EReal) := by
  unfold feat
  split
  · exact hX _
  · exact ⟨0, EReal.coe_zero.symm⟩

/-- A class's count is a natural number. -/
theorem cntOn_nat (Lb : SLb.Idx → BitVec 32) (lo len c : ℕ) : ∃ n : ℕ, cntOn Lb lo len c = ((n : ℝ) : EReal) := by
  induction len with
  | zero => exact ⟨0, by rw [cntOn_zero, Nat.cast_zero, EReal.coe_zero]⟩
  | succ n ih =>
    obtain ⟨m, hm⟩ := ih
    rw [cntOn_add, cntOn_one, hm]
    by_cases h : lab Lb (lo + n) = c
    · refine ⟨m + 1, ?_⟩
      rw [if_pos h, Nat.cast_add, Nat.cast_one, EReal.coe_add, EReal.coe_one]
    · exact ⟨m, by rw [if_neg h, add_zero]⟩

/-- A per-class feature sum of finite features is finite. -/
theorem segOn_real (X : SX.Idx → EReal) (Lb : SLb.Idx → BitVec 32) (hX : Finite X) (lo len c d : ℕ) :
    ∃ v : ℝ, segOn X Lb lo len c d = (v : EReal) := by
  induction len with
  | zero => exact ⟨0, by rw [segOn_zero, EReal.coe_zero]⟩
  | succ n ih =>
    obtain ⟨v, hv⟩ := ih
    obtain ⟨x, hx⟩ := feat_real X hX (lo + n) d
    rw [segOn_add, segOn_one, hv, hx]
    by_cases h : lab Lb (lo + n) = c
    · exact ⟨v + x, by rw [if_pos h, EReal.coe_add]⟩
    · exact ⟨v, by rw [if_neg h, add_zero]⟩

/-- Over any range of samples, the sum over a class's samples of (a real constant - feature) is the class's count
    times the constant minus the class's feature sum. -/
private theorem diffOn_eq (X : SX.Idx → EReal) (Lb : SLb.Idx → BitVec 32) (hX : Finite X) (C : ℝ) (lo len c d : ℕ) :
    (∑ r ∈ Finset.range len, if lab Lb (lo + r) = c then (C : EReal) - feat X (lo + r) d else 0)
      = cntOn Lb lo len c * (C : EReal) - segOn X Lb lo len c d := by
  induction len with
  | zero => rw [Finset.sum_range_zero, cntOn_zero, segOn_zero, zero_mul, sub_zero]
  | succ n ih =>
    obtain ⟨m, hm⟩ := cntOn_nat Lb lo n c
    obtain ⟨v, hv⟩ := segOn_real X Lb hX lo n c d
    obtain ⟨x, hx⟩ := feat_real X hX (lo + n) d
    rw [Finset.sum_range_succ, ih, cntOn_add, segOn_add, cntOn_one, segOn_one, hm, hv, hx]
    by_cases h : lab Lb (lo + n) = c
    · rw [if_pos h, if_pos h, if_pos h, ← EReal.coe_one, ← EReal.coe_add, ← EReal.coe_add, ← EReal.coe_mul,
        ← EReal.coe_mul, ← EReal.coe_sub, ← EReal.coe_sub, ← EReal.coe_sub, ← EReal.coe_add]
      congr 1
      ring
    · rw [if_neg h, if_neg h, if_neg h, add_zero, add_zero, add_zero]

theorem refSeg_eq (X : SX.Idx → EReal) (Lb : SLb.Idx → BitVec 32) (Cn : SCn.Idx → EReal)
    (hX : Finite X) (hC : Finite Cn) (c : Fin 1000) (d : Fin 512) :
    refSeg X Lb Cn c d = cntOn Lb 0 65536 c.val * Cn (ix2 c d) - segOn X Lb 0 65536 c.val d.val := by
  obtain ⟨C, hCv⟩ := hC (ix2 c d)
  have hcen : cen Cn c.val d.val = (C : EReal) := by
    unfold cen
    rw [dif_pos ⟨c.isLt, d.isLt⟩]
    exact hCv
  unfold refSeg
  rw [hCv, ← diffOn_eq X Lb hX C 0 65536 c.val d.val, Finset.sum_range]
  refine Finset.sum_congr rfl fun b _ => ?_
  have hfeat : feat X (0 + b.val) d.val = X (ix2 b d) := by
    unfold feat
    rw [dif_pos ⟨by rw [Nat.zero_add]; exact b.isLt, d.isLt⟩]
    congr 1
    simp only [Nat.zero_add]
  by_cases h : lab Lb b.val = c.val
  · rw [if_pos h, if_pos (by rw [Nat.zero_add]; exact h), h, hcen, hfeat]
  · rw [if_neg h, if_neg (by rw [Nat.zero_add]; exact h)]

end CenterLoss

end
-- ==== Proof.BridgeLoss.lean ====
/-
  The losses agree: for finite features and centers and labels that name classes, the sum over samples and coordinates
  of (x - cen)^2 is  sum x^2 - 2 sum_c <seg_c, cen_c> + sum_c n_c |cen_c|^2,  and halving then dividing by the number of
  samples is dividing by twice that number.
-/
import proofs.«402336_j7009386627592_3_alg».proof.Proof.BridgeSums

noncomputable section

namespace CenterLoss

open Idealize.ShloMosaic Idealize.ShloMosaic.ValueIdx
open scoped BigOperators

/-! ## The identity over the reals

Samples `b`, coordinates `d`, classes `c`; `l b` is sample `b`'s class. -/

/-- The sum over all classes of the entries at the classes equal to `l` is the entry at `l`. -/
private theorem pick {C : ℕ} (l : ℕ) (hl : l < C) (g : Fin C → ℝ) :
    (∑ c : Fin C, if l = c.val then g c else 0) = g ⟨l, hl⟩ := by
  rw [Finset.sum_eq_single (⟨l, hl⟩ : Fin C)]
  · simp
  · intro c _ hc
    rw [if_neg]
    intro h
    exact hc (Fin.ext h.symm)
  · intro h
    exact absurd (Finset.mem_univ _) h

/-- The cross term: summing feature times own center over the samples is summing, class by class, the class's
    feature sum times the class's center. -/
private theorem cross_term {B D C : ℕ} (x : Fin B → Fin D → ℝ) (cn : Fin C → Fin D → ℝ) (l : Fin B → ℕ)
    (hl : ∀ b, l b < C) :
    (∑ c : Fin C, ∑ d : Fin D, (∑ b : Fin B, if l b = c.val then x b d else 0) * cn c d)
      = ∑ b : Fin B, ∑ d : Fin D, x b d * cn ⟨l b, hl b⟩ d := by
  have hF : ∀ (c : Fin C) (d : Fin D), (∑ b : Fin B, if l b = c.val then x b d else 0) * cn c d
      = ∑ b : Fin B, if l b = c.val then x b d * cn c d else 0 := by
    intro c d
    rw [Finset.sum_mul]
    refine Finset.sum_congr rfl (fun b _ => ?_)
    split_ifs
    · rfl
    · exact zero_mul _
  have hG : ∀ (b : Fin B) (d : Fin D), x b d * cn ⟨l b, hl b⟩ d
      = ∑ c : Fin C, if l b = c.val then x b d * cn c d else 0 := by
    intro b d
    exact (pick (l b) (hl b) (fun c => x b d * cn c d)).symm
  calc (∑ c : Fin C, ∑ d : Fin D, (∑ b : Fin B, if l b = c.val then x b d else 0) * cn c d)
      = ∑ c : Fin C, ∑ d : Fin D, ∑ b : Fin B, if l b = c.val then x b d * cn c d else 0 :=
        Finset.sum_congr rfl (fun c _ => Finset.sum_congr rfl (fun d _ => hF c d))
    _ = ∑ c : Fin C, ∑ b : Fin B, ∑ d : Fin D, if l b = c.val then x b d * cn c d else 0 :=
        Finset.sum_congr rfl (fun c _ => Finset.sum_comm)
    _ = ∑ b : Fin B, ∑ c : Fin C, ∑ d : Fin D, if l b = c.val then x b d * cn c d else 0 := Finset.sum_comm
    _ = ∑ b : Fin B, ∑ d : Fin D, ∑ c : Fin C, if l b = c.val then x b d * cn c d else 0 :=
        Finset.sum_congr rfl (fun b _ => Finset.sum_comm)
    _ = ∑ b : Fin B, ∑ d : Fin D, x b d * cn ⟨l b, hl b⟩ d :=
        Finset.sum_congr rfl (fun b _ => Finset.sum_congr rfl (fun d _ => (hG b d).symm))

/-- The square term: summing a quantity of the own class over the samples is summing, class by class, the class's
    count times the quantity. -/
private theorem count_term {B C : ℕ} (q : Fin C → ℝ) (l : Fin B → ℕ) (hl : ∀ b, l b < C) :
    (∑ c : Fin C, (∑ b : Fin B, if l b = c.val then (1 : ℝ) else 0) * q c) = ∑ b : Fin B, q ⟨l b, hl b⟩ := by
  have hF : ∀ c : Fin C, (∑ b : Fin B, if l b = c.val then (1 : ℝ) else 0) * q c
      = ∑ b : Fin B, if l b = c.val then q c else 0 := by
    intro c
    rw [Finset.sum_mul]
    refine Finset.sum_congr rfl (fun b _ => ?_)
    split_ifs
    · exact one_mul _
    · exact zero_mul _
  calc (∑ c : Fin C, (∑ b : Fin B, if l b = c.val then (1 : ℝ) else 0) * q c)
      = ∑ c : Fin C, ∑ b : Fin B, if l b = c.val then q c else 0 := Finset.sum_congr rfl (fun c _ => hF c)
    _ = ∑ b : Fin B, ∑ c : Fin C, if l b = c.val then q c else 0 := Finset.sum_comm
    _ = ∑ b : Fin B, q ⟨l b, hl b⟩ := Finset.sum_congr rfl (fun b _ => pick (l b) (hl b) q)

/-- The expanded square, summed: sum (x - cen)^2 = sum x^2 - 2 sum_c <seg_c, cen_c> + sum_c n_c |cen_c|^2. -/
private theorem expand_real {B D C : ℕ} (x : Fin B → Fin D → ℝ) (cn : Fin C → Fin D → ℝ) (l : Fin B → ℕ)
    (hl : ∀ b, l b < C) :
    (∑ b : Fin B, ∑ d : Fin D, (x b d - cn ⟨l b, hl b⟩ d) * (x b d - cn ⟨l b, hl b⟩ d))
      = ((∑ b : Fin B, ∑ d : Fin D, x b d * x b d)
          - 2 * ∑ c : Fin C, ∑ d : Fin D, (∑ b : Fin B, if l b = c.val then x b d else 0) * cn c d)
        + ∑ c : Fin C, (∑ b : Fin B, if l b = c.val then (1 : ℝ) else 0) * ∑ d : Fin D, cn c d * cn c d := by
  rw [cross_term x cn l hl, count_term (fun c => ∑ d : Fin D, cn c d * cn c d) l hl]
  have hsq : ∀ (b : Fin B) (d : Fin D), (x b d - cn ⟨l b, hl b⟩ d) * (x b d - cn ⟨l b, hl b⟩ d)
      = (x b d * x b d - 2 * (x b d * cn ⟨l b, hl b⟩ d)) + cn ⟨l b, hl b⟩ d * cn ⟨l b, hl b⟩ d := by
    intro b d
    ring
  simp only [hsq, Finset.sum_add_distrib, Finset.sum_sub_distrib, ← Finset.mul_sum]

/-! ## From the extended reals to the reals -/

/-- A finite sum of real numbers, read in the extended reals, is the sum of the numbers read there. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

private theorem coe_ite_zero (p : Prop) [Decidable p] (a : ℝ) :
    (((if p then a else 0 : ℝ)) : EReal) = if p then (a : EReal) else 0 := by
  split_ifs
  · rfl
  · rfl

/-- Inside the array, the feature read at natural-number coordinates is the array's entry. -/
private theorem feat_fin (X : SX.Idx → EReal) (b : Fin 65536) (d : Fin 512) :
    feat X (0 + b.val) d.val = X (ix2 b d) := by
  unfold feat
  rw [dif_pos ⟨by omega, d.isLt⟩]
  congr 2
  exact Fin.ext (Nat.zero_add _)

/-- A label that names a class, read at a natural-number position inside the array. -/
private theorem lab_lt (Lb : SLb.Idx → BitVec 32) (hL : InRange Lb) (b : Fin 65536) : lab Lb b.val < 1000 := by
  unfold lab
  rw [dif_pos b.isLt]
  exact hL b

/-- Inside the array, the center read at natural-number coordinates is the array's entry. -/
private theorem cen_fin (Cn : SCn.Idx → EReal) (k : ℕ) (hk : k < 1000) (d : Fin 512) :
    cen Cn k d.val = Cn (ix2 ⟨k, hk⟩ d) := by
  unfold cen
  rw [dif_pos ⟨hk, d.isLt⟩]

section
variable (X : SX.Idx → EReal) (Lb : SLb.Idx → BitVec 32) (Cn : SCn.Idx → EReal)
  (x : SX.Idx → ℝ) (cn : SCn.Idx → ℝ) (hx : ∀ i, X i = (x i : EReal)) (hc : ∀ i, Cn i = (cn i : EReal))

include hx in
private theorem ssqOn_coe :
    ssqOn X 0 65536 = ((∑ b : Fin 65536, ∑ d : Fin 512, x (ix2 b d) * x (ix2 b d) : ℝ) : EReal) := by
  unfold ssqOn
  rw [Finset.sum_range, coe_sum]
  refine Finset.sum_congr rfl (fun b _ => ?_)
  rw [Finset.sum_range, coe_sum]
  refine Finset.sum_congr rfl (fun d _ => ?_)
  rw [feat_fin, hx, EReal.coe_mul]

include hx in
private theorem segOn_coe (c : Fin 1000) (d : Fin 512) :
    segOn X Lb 0 65536 c.val d.val
      = ((∑ b : Fin 65536, if lab Lb b.val = c.val then x (ix2 b d) else 0 : ℝ) : EReal) := by
  unfold segOn
  rw [Finset.sum_range, coe_sum]
  refine Finset.sum_congr rfl (fun b _ => ?_)
  rw [coe_ite_zero, feat_fin, hx, Nat.zero_add]

private theorem cntOn_coe (c : Fin 1000) :
    cntOn Lb 0 65536 c.val = ((∑ b : Fin 65536, if lab Lb b.val = c.val then (1 : ℝ) else 0 : ℝ) : EReal) := by
  unfold cntOn
  rw [Finset.sum_range, coe_sum]
  refine Finset.sum_congr rfl (fun b _ => ?_)
  rw [coe_ite_zero, Nat.zero_add, EReal.coe_one]

end

section
variable (X : SX.Idx → EReal) (Lb : SLb.Idx → BitVec 32) (Cn : SCn.Idx → EReal)
  (x : SX.Idx → ℝ) (cn : SCn.Idx → ℝ) (hx : ∀ i, X i = (x i : EReal)) (hc : ∀ i, Cn i = (cn i : EReal))

include hx hc in
/-- The kernel's cross term over the reals. -/
private theorem crossK_coe :
    (∑ c : Fin 1000, ∑ d : Fin 512, tSum (out0 X Lb) c d * Cn (ix2 c d))
      = ((∑ c : Fin 1000, ∑ d : Fin 512,
          (∑ b : Fin 65536, if lab Lb b.val = c.val then x (ix2 b d) else 0) * cn (ix2 c d) : ℝ) : EReal) := by
  rw [coe_sum]
  refine Finset.sum_congr rfl (fun c _ => ?_)
  rw [coe_sum]
  refine Finset.sum_congr rfl (fun d _ => ?_)
  rw [tSum_out0, segOn_coe X Lb x hx c d, hc, EReal.coe_mul]

include hc in
/-- The squared length of a center over the reals. -/
private theorem cnSq_coe (c : Fin 1000) :
    (∑ d : Fin 512, Cn (ix2 c d) * Cn (ix2 c d)) = ((∑ d : Fin 512, cn (ix2 c d) * cn (ix2 c d) : ℝ) : EReal) := by
  rw [coe_sum]
  refine Finset.sum_congr rfl (fun d _ => ?_)
  rw [hc, EReal.coe_mul]

include hc in
/-- The kernel's square term over the reals. -/
private theorem countK_coe :
    (∑ c : Fin 1000, tCnt (out1 Lb) c * ∑ d : Fin 512, Cn (ix2 c d) * Cn (ix2 c d))
      = ((∑ c : Fin 1000, (∑ b : Fin 65536, if lab Lb b.val = c.val then (1 : ℝ) else 0)
            * ∑ d : Fin 512, cn (ix2 c d) * cn (ix2 c d) : ℝ) : EReal) := by
  rw [coe_sum]
  refine Finset.sum_congr rfl (fun c _ => ?_)
  rw [tCnt_out1, cntOn_coe Lb c, cnSq_coe Cn cn hc c, EReal.coe_mul]

include hx hc in
/-- The reference's sum of squared differences over the reals. -/
private theorem refSq_coe (hl : ∀ b : Fin 65536, lab Lb b.val < 1000) :
    (∑ b : Fin 65536, ∑ d : Fin 512,
        (X (ix2 b d) - cen Cn (lab Lb b.val) d.val) * (X (ix2 b d) - cen Cn (lab Lb b.val) d.val))
      = ((∑ b : Fin 65536, ∑ d : Fin 512,
          (x (ix2 b d) - cn (ix2 ⟨lab Lb b.val, hl b⟩ d)) * (x (ix2 b d) - cn (ix2 ⟨lab Lb b.val, hl b⟩ d)) : ℝ) : EReal) := by
  rw [coe_sum]
  refine Finset.sum_congr rfl (fun b _ => ?_)
  rw [coe_sum]
  refine Finset.sum_congr rfl (fun d _ => ?_)
  rw [cen_fin Cn _ (hl b) d, hx, hc, EReal.coe_mul, EReal.coe_sub]

end

theorem loss_bridge (X : SX.Idx → EReal) (Lb : SLb.Idx → BitVec 32) (Cn : SCn.Idx → EReal)
    (hX : Finite X) (hC : Finite Cn) (hL : InRange Lb) :
    tailLoss (out0 X Lb) (out1 Lb) (out2 X) Cn = refLoss X Lb Cn := by
  choose x hx using hX
  choose cn hc using hC
  have hl : ∀ b : Fin 65536, lab Lb b.val < 1000 := lab_lt Lb hL
  have e1 : (131072 : EReal) = ((131072 : ℝ) : EReal) := rfl
  have e2 : (2 : EReal) = ((2 : ℝ) : EReal) := rfl
  have e3 : (65536 : EReal) = ((65536 : ℝ) : EReal) := rfl
  unfold tailLoss refLoss
  rw [tSq_out2, ssqOn_coe X x hx, crossK_coe X Lb Cn x cn hx hc, countK_coe Lb Cn cn hc, refSq_coe X Lb Cn x cn hx hc hl,
    e1, e2, e3, Ideal.div_coe (by norm_num : (131072 : ℝ) ≠ 0), Ideal.div_coe (by norm_num : (2 : ℝ) ≠ 0),
    Ideal.div_coe (by norm_num : (65536 : ℝ) ≠ 0), ← EReal.coe_mul, ← EReal.coe_sub, ← EReal.coe_add, ← EReal.coe_mul,
    ← EReal.coe_mul, ← EReal.coe_mul,
    expand_real (fun b d => x (ix2 b d)) (fun c d => cn (ix2 c d)) (fun b => lab Lb b.val) hl]
  refine EReal.coe_eq_coe_iff.mpr ?_
  ring

end CenterLoss

end
-- ==== Proof.BridgeNew.lean ====
/-
  The updated centers agree: with the shared sums identified, both programs subtract the same step from each center.
-/
import proofs.«402336_j7009386627592_3_alg».proof.Proof.BridgeSums

noncomputable section

namespace CenterLoss

open Idealize.ShloMosaic Idealize.ShloMosaic.ValueIdx
open scoped BigOperators

theorem new_bridge (X : SX.Idx → EReal) (Lb : SLb.Idx → BitVec 32) (Cn : SCn.Idx → EReal)
    (hX : Finite X) (hC : Finite Cn) (hL : InRange Lb) (c : Fin 1000) (d : Fin 512) :
    tailNew (out0 X Lb) (out1 Lb) Cn c d = refNew X Lb Cn c d := by
  unfold tailNew refNew
  rw [tCnt_out1, tSum_out0, refCnt_eq, refSeg_eq X Lb Cn hX hC]

end CenterLoss

end
-- ==== Proof.PreFacts.lean ====
/-
  What the precondition says of the arguments: every feature and every center coordinate is a real number, and every
  label names a class (it is at least 0 and below 1000 as a signed word, so as a natural number it is below 1000).
-/
import proofs.«402336_j7009386627592_3_alg».proof.Proof.Gen.Pre_finite_inputs
import proofs.«402336_j7009386627592_3_alg».proof.Proof.Spec
import Idealize.ShloMosaic.Lib.ReduceAll
import Idealize.ShloMosaic.Lib.StableHlo.Predicate

noncomputable section

namespace CenterLoss.PreFacts

open Idealize.ShloMosaic Idealize.ShloMosaic.ValueIdx

/-- An array of rank 0 has one index. -/
local instance : Subsingleton Cert.Pre_finite_inputs.S_.Idx := ⟨fun a b => funext fun d => d.elim0⟩

/-- The pattern of positive infinity denotes the top of the extended reals. -/
private theorem ofBits_inf : Ideal.ofBits .f32 0x7F800000#32 = (⊤ : EReal) := by
  simp [Ideal.ofBits, Ideal.ieee]

/-- An extended real whose absolute value, the larger of it and its negation, is below positive infinity is a real
    number: at either infinity the absolute value is the top itself. -/
private theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-- A word at least 0 and below 1000, both as signed numbers, is below 1000 as a natural number: were its top bit set
    it would read negative. -/
private theorem toNat_lt_of_signed (w : BitVec 32) (h0 : IntOp.cmpi .sge w 0#32 = 1#1)
    (h1 : IntOp.cmpi .slt w 1000#32 = 1#1) : w.toNat < 1000 := by
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  have e1 : (1000#32 : BitVec 32).toInt = 1000 := by decide
  rw [e0] at h0
  rw [e1] at h1
  have hw := BitVec.toInt_eq_toNat_cond w
  have hlt := w.isLt
  split at hw <;> omega

/-- The precondition is the conjunction of three statements over all entries: each feature's absolute value is below
    infinity, each center coordinate's is, and each label lies in [0, 1000) signed.  A conjunction over all entries that
    holds, holds at each entry. -/
theorem of_pre [Cert.Pre_finite_inputs.Facts] (X : SX.Idx → EReal) (Lb : SLb.Idx → BitVec 32) (Cn : SCn.Idx → EReal)
    (h : Cert.Pre_finite_inputs.fn (F := Ideal) X Lb Cn = fun _ => 1#1) :
    Finite X ∧ InRange Lb ∧ Finite Cn := by
  have e := congrFun h ValueIdx.ix0
  dsimp only [Cert.Pre_finite_inputs.fn] at e
  obtain ⟨e8, eL⟩ := IntOp.andi_eq_one.1 e
  obtain ⟨eX, eC⟩ := IntOp.andi_eq_one.1 e8
  refine ⟨fun i => ?_, fun b => ?_, fun i => ?_⟩
  · exact real_of_abs_lt (X i) (Host.reduce_andi_all _ _ _ _ _ eX i)
  · obtain ⟨h0, h1⟩ := IntOp.andi_eq_one.1 (Host.reduce_andi_all _ _ _ _ _ eL (ix1 b))
    exact toNat_lt_of_signed (Lb (ix1 b)) h0 h1
  · exact real_of_abs_lt (Cn i) (Host.reduce_andi_all _ _ _ _ _ eC i)

end CenterLoss.PreFacts

end
-- ==== Proof.lean ====
/-
  Center loss: the kernel program and the reference compute the same loss and the same updated centers.

  Under the precondition every feature and every center coordinate is a real number and every label names one of
  the 1000 classes.  The kernel's grid leaves, per core, the per-class feature sums, the per-class counts and the sum
  of squared features over that core's half of the samples (the closed form of its accumulators, by induction on the
  grid point, then the two write-backs read as arrays); its host part adds the halves and finishes by the expanded
  square.  The reference gathers each sample's own center and scatter-adds by label.  The two losses and the two
  updated centers are then the same functions of the three arguments: the expansion of the square, the exchange of
  the sum over samples with the sum over classes, and the linearity of the per-class sum of differences — all over
  real numbers, which is where the precondition is used.
  The three frames: the two kernels' are the generated frame runs; the reference's is its run with the results
  dropped.  The idealization removed two roundings through bf16 (the one-hot matrix before its column sum, and the
  high part of the features): each is the rule's own statement.
-/
import proofs.«402336_j7009386627592_3_alg».proof.Defs
import proofs.«402336_j7009386627592_3_alg».proof.Proof.Gen.Kernel.Frame
import proofs.«402336_j7009386627592_3_alg».proof.Proof.Gen.KernelIdeal.Frame
import proofs.«402336_j7009386627592_3_alg».proof.Proof.Gen.ReferenceIdeal
import proofs.«402336_j7009386627592_3_alg».proof.Proof.Gen.Pre_finite_inputs
import proofs.«402336_j7009386627592_3_alg».proof.Proof.RefRunP
import proofs.«402336_j7009386627592_3_alg».proof.Proof.KTail
import proofs.«402336_j7009386627592_3_alg».proof.Proof.KFinal
import proofs.«402336_j7009386627592_3_alg».proof.Proof.RRead
import proofs.«402336_j7009386627592_3_alg».proof.Proof.BridgeLoss
import proofs.«402336_j7009386627592_3_alg».proof.Proof.BridgeNew
import proofs.«402336_j7009386627592_3_alg».proof.Proof.PreFacts
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The two roundings through bf16 the idealization removed. -/
theorem preserves : Cert.preserves_Kernel_KernelIdeal :=
  ⟨IdealRules.truncf_extf.statement _ .f32 .bf16, IdealRules.truncf_extf.statement _ .f32 .bf16⟩

open Cert.KernelIdeal.Blocks in
/-- The kernel program's two results are the reference's functions of the arguments. -/
theorem kernel_values (m : (ℓ : Loc Cert.KernelIdeal.nD Cert.KernelIdeal.τ Cert.KernelIdeal.sig) → Buf (Elt Ideal) ℓ)
    (c : Dev Cert.KernelIdeal.nD) (hX : CenterLoss.Finite (argX m c)) (hL : CenterLoss.InRange (argL m c))
    (hC : CenterLoss.Finite (argC m c)) :
    CenterLoss.tailLoss (Cert.KernelIdeal.Tail.O0 m c) (Cert.KernelIdeal.Tail.O1 m c) (Cert.KernelIdeal.Tail.O2 m c) (argC m c)
        = CenterLoss.refLoss (argX m c) (argL m c) (argC m c)
    ∧ CenterLoss.tailNew (Cert.KernelIdeal.Tail.O0 m c) (Cert.KernelIdeal.Tail.O1 m c) (argC m c)
        = CenterLoss.refNew (argX m c) (argL m c) (argC m c) := by
  have e0 : Cert.KernelIdeal.Tail.O0 m c = CenterLoss.out0 (argX m c) (argL m c) := Cert.KernelIdeal.Final.final0 m c hX hL
  have e1 : Cert.KernelIdeal.Tail.O1 m c = CenterLoss.out1 (argL m c) := Cert.KernelIdeal.Final.final1 m c hX hL
  have e2 : Cert.KernelIdeal.Tail.O2 m c = CenterLoss.out2 (argX m c) := Cert.KernelIdeal.Final.final2 m c hX hL
  rw [e0, e1, e2]
  exact ⟨CenterLoss.loss_bridge _ _ _ hX hC hL,
    funext fun k => funext fun d => CenterLoss.new_bridge _ _ _ hX hC hL k d⟩

theorem algebraic : Cert.algebraic_KernelIdeal_ReferenceIdeal := by
  intro m ρ m' ρ' hpre hagree
  have hP : ∀ c : Dev Cert.KernelIdeal.nD,
      CenterLoss.Finite (Cert.KernelIdeal.Blocks.argX m c) ∧ CenterLoss.InRange (Cert.KernelIdeal.Blocks.argL m c)
        ∧ CenterLoss.Finite (Cert.KernelIdeal.Blocks.argC m c) :=
    fun c => CenterLoss.PreFacts.of_pre _ _ _ (hpre c)
  have hL' : ∀ c : Dev Cert.ReferenceIdeal.nD, CenterLoss.InRange (Cert.ReferenceIdeal.RefValue.argL m' c) := fun c => by
    show CenterLoss.InRange (m' ((c.tc : Thread Cert.ReferenceIdeal.nD Cert.ReferenceIdeal.τ).loc Cert.ReferenceIdeal.main_arg1))
    rw [(hagree c).2.1]
    exact (hP c).2.1
  refine ⟨fun c => CenterLoss.lossArr (CenterLoss.refLoss (Cert.KernelIdeal.Blocks.argX m c) (Cert.KernelIdeal.Blocks.argL m c) (Cert.KernelIdeal.Blocks.argC m c)),
    fun c => CenterLoss.newArr (CenterLoss.refNew (Cert.KernelIdeal.Blocks.argX m c) (Cert.KernelIdeal.Blocks.argL m c) (Cert.KernelIdeal.Blocks.argC m c)), ?_, ?_⟩
  · refine (θ_run Cert.KernelIdeal.defs _ _).mono (fun r h c => ?_) (Cert.KernelIdeal.Tail.run_values m ρ)
    obtain ⟨h28, h41, hk⟩ := h c
    obtain ⟨hX, hL, hC⟩ := hP c
    obtain ⟨eL, eN⟩ := kernel_values m c hX hL hC
    exact ⟨h28.trans (congrArg CenterLoss.lossArr eL), h41.trans (congrArg CenterLoss.newArr eN), hk⟩
  · refine (θ_run Cert.ReferenceIdeal.defs _ _).mono (fun r h c => ?_) (Cert.ReferenceIdeal.RefValue.run_values m' ρ' hL')
    obtain ⟨h11, h31, hk⟩ := h c
    have eX : Cert.ReferenceIdeal.RefValue.argX m' c = Cert.KernelIdeal.Blocks.argX m c := (hagree c).1
    have eLb : Cert.ReferenceIdeal.RefValue.argL m' c = Cert.KernelIdeal.Blocks.argL m c := (hagree c).2.1
    have eC : Cert.ReferenceIdeal.RefValue.argC m' c = Cert.KernelIdeal.Blocks.argC m c := (hagree c).2.2
    refine ⟨h11.trans ?_, h31.trans ?_, hk⟩
    · rw [eX, eLb, eC]
    · rw [eX, eLb, eC]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
